-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x6400000 : Shape := ⟨2, ![2, 6400000]⟩
abbrev S100000 : Shape := ⟨1, ![100000]⟩
abbrev S6400000 : Shape := ⟨1, ![6400000]⟩
abbrev S6400000x2 : Shape := ⟨2, ![6400000, 2]⟩
abbrev S_ : Shape := ⟨0, ![]⟩
abbrev S1x6400000 : Shape := ⟨2, ![1, 6400000]⟩
abbrev S6400000x1 : Shape := ⟨2, ![6400000, 1]⟩

class Facts : Prop where
  bcast_S_S100000 : S_.BroadcastsInDim S100000 (![] : Fin 0 → Fin S100000.rank)
  reducesTo_S100000_S_d0 : S100000.ReducesTo [0] S_
  h_S_ : 0 < S_.numel
  bcast_S_S6400000 : S_.BroadcastsInDim S6400000 (![] : Fin 0 → Fin S6400000.rank)
  reducesTo_S6400000_S_d0 : S6400000.ReducesTo [0] S_
  bcast_S_S6400000x2 : S_.BroadcastsInDim S6400000x2 (![] : Fin 0 → Fin S6400000x2.rank)
  reducesTo_S6400000x2_S_d0_1 : S6400000x2.ReducesTo [0, 1] S_
  slices_S2x6400000_S1x6400000_1_0 : S2x6400000.Slices ![1, 0] S1x6400000
  shapeCasts_S1x6400000_S6400000 : S1x6400000.ShapeCasts S6400000
  bcast_S6400000_S6400000x1_0 : S6400000.BroadcastsInDim S6400000x1 (![0] : Fin 1 → Fin S6400000x1.rank)
  gather_S100000_S6400000x1_S6400000_n_0_n_n_0_1_1_wf : GatherDims.WF S100000 S6400000x1 S6400000 [] [0] [] [0] [] 1 ![1]

variable [Facts]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def fn_part2 {F : FTy → Type} [FloatOps F] (main_v23 : IVec S_ 1) (main_v34 : IVec S6400000 1) : IVec S_ 1 :=
  let main_c_11 : IVec S_ 1 := constantI S_ 1 1#1
  let main_v35 : IVec S_ 1 := (fun x v => Host.reduce IntOp.andi x v reducesTo_S6400000_S_d0 h_S_) main_v34 main_c_11
  let main_v36 : IVec S_ 1 := andi main_v23 main_v35
  main_v36

def fn_part1 {F : FTy → Type} [FloatOps F] (main_arg0 : IVec S2x6400000 32) (main_arg2 : FVec F S100000 .f32) (main_arg5 : FVec F S6400000x2 .f32) (main_v13 : IVec S_ 1) (main_v16 : IVec S6400000 1) : IVec S_ 1 :=
  let main_c_5 : IVec S_ 1 := constantI S_ 1 1#1
  let main_v17 : IVec S_ 1 := (fun x v => Host.reduce IntOp.andi x v reducesTo_S6400000_S_d0 h_S_) main_v16 main_c_5
  let main_v18 : IVec S_ 1 := andi main_v13 main_v17
  let main_v19 : FVec F S6400000x2 .f32 := Host.absf main_arg5
  let main_cst_6 : FVec F S_ .f32 := constant S_ .f32 0x7F800000#32
  let main_v20 : FVec F S6400000x2 .f32 := broadcastInDim S6400000x2 ![] bcast_S_S6400000x2 main_cst_6
  let main_v21 : IVec S6400000x2 1 := cmpf .olt main_v19 main_v20
  let main_c_7 : IVec S_ 1 := constantI S_ 1 1#1
  let main_v22 : IVec S_ 1 := (fun x v => Host.reduce IntOp.andi x v reducesTo_S6400000x2_S_d0_1 h_S_) main_v21 main_c_7
  let main_v23 : IVec S_ 1 := andi main_v18 main_v22
  let main_v24 : IVec S1x6400000 32 := (extractStridedSlice S1x6400000 ![1, 0] · slices_S2x6400000_S1x6400000_1_0) main_arg0
  let main_v25 : IVec S6400000 32 := shapeCast S6400000 main_v24 shapeCasts_S1x6400000_S6400000
  let main_c_8 : IVec S_ 32 := constantI S_ 32 0#32
  let main_v26 : IVec S6400000 32 := broadcastInDim S6400000 ![] bcast_S_S6400000 main_c_8
  let main_v27 : IVec S6400000 1 := cmpi .slt main_v25 main_v26
  let main_c_9 : IVec S_ 32 := constantI S_ 32 100000#32
  let main_v28 : IVec S6400000 32 := broadcastInDim S6400000 ![] bcast_S_S6400000 main_c_9
  let main_v29 : IVec S6400000 32 := addi main_v25 main_v28
  let main_v30 : IVec S6400000 32 := select main_v27 main_v29 main_v25
  let main_v31 : IVec S6400000x1 32 := broadcastInDim S6400000x1 ![0] bcast_S6400000_S6400000x1_0 main_v30
  let main_v32 : FVec F S6400000 .f32 := (fun x i => Host.gather gather_S100000_S6400000x1_S6400000_n_0_n_n_0_1_1 x i) main_arg2 main_v31
  let main_cst_10 : FVec F S_ .f32 := constant S_ .f32 0x00000000#32
  let main_v33 : FVec F S6400000 .f32 := broadcastInDim S6400000 ![] bcast_S_S6400000 main_cst_10
  let main_v34 : IVec S6400000 1 := cmpf .une main_v32 main_v33
  fn_part2 (F := F) main_v23 main_v34

def fn {F : FTy → Type} [FloatOps F] (main_arg0 : IVec S2x6400000 32) (main_arg1 : FVec F S100000 .f32) (main_arg2 : FVec F S100000 .f32) (main_arg3 : FVec F S100000 .f32) (main_arg4 : FVec F S6400000 .f32) (main_arg5 : FVec F S6400000x2 .f32) : IVec S_ 1 :=
  let main_v0 : FVec F S100000 .f32 := Host.absf main_arg1
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S100000 .f32 := Host.absf main_arg2
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S6400000 .f32 := Host.absf main_arg4
  let main_cst_4 : FVec F S_ .f32 := constant S_ .f32 0x7F800000#32
  let main_v15 : FVec F S6400000 .f32 := broadcastInDim S6400000 ![] bcast_S_S6400000 main_cst_4
  let main_v16 : IVec S6400000 1 := cmpf .olt main_v14 main_v15
  fn_part1 (F := F) main_arg0 main_arg2 main_arg5 main_v13 main_v16
-- ==== Kernel.lean ====
abbrev S2x6400000 : Shape := ⟨2, ![2, 6400000]⟩
abbrev S100000 : Shape := ⟨1, ![100000]⟩
abbrev S6400000 : Shape := ⟨1, ![6400000]⟩
abbrev S6400000x2 : Shape := ⟨2, ![6400000, 2]⟩
abbrev S1x6400000 : Shape := ⟨2, ![1, 6400000]⟩
abbrev S_ : Shape := ⟨0, ![]⟩
abbrev S6400000x1 : Shape := ⟨2, ![6400000, 1]⟩
abbrev S50000x128 : Shape := ⟨2, ![50000, 128]⟩
abbrev S2000x128 : Shape := ⟨2, ![2000, 128]⟩
abbrev S100000x2 : Shape := ⟨2, ![100000, 2]⟩

abbrev nBuf : Space → Nat
  | .hbm => 103
  | .vmem => 30
  | .smem => 0
  | _ => 0

abbrev bufTy : (tb : Table) → Fin (tcTables nBuf tb) → BufTy
  | .hbm, ⟨0, _⟩ => ⟨S2x6400000, .i32⟩
  | .hbm, ⟨1, _⟩ => ⟨S100000, .f32⟩
  | .hbm, ⟨2, _⟩ => ⟨S100000, .f32⟩
  | .hbm, ⟨3, _⟩ => ⟨S100000, .f32⟩
  | .hbm, ⟨4, _⟩ => ⟨S6400000, .f32⟩
  | .hbm, ⟨5, _⟩ => ⟨S6400000x2, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S100000, .f32⟩
  | .hbm, ⟨11, _⟩ => ⟨S100000, .f32⟩
  | .hbm, ⟨12, _⟩ => ⟨S_, .i32⟩
  | .hbm, ⟨13, _⟩ => ⟨S6400000, .i32⟩
  | .hbm, ⟨14, _⟩ => ⟨S6400000, .i1⟩
  | .hbm, ⟨15, _⟩ => ⟨S_, .i32⟩
  | .hbm, ⟨16, _⟩ => ⟨S6400000, .i32⟩
  | .hbm, ⟨17, _⟩ => ⟨S6400000, .i32⟩
  | .hbm, ⟨18, _⟩ => ⟨S6400000, .i32⟩
  | .hbm, ⟨19, _⟩ => ⟨S6400000x1, .i32⟩
  | .hbm, ⟨20, _⟩ => ⟨S6400000, .f32⟩
  | .hbm, ⟨21, _⟩ => ⟨S_, .i32⟩
  | .hbm, ⟨22, _⟩ => ⟨S6400000, .i32⟩
  | .hbm, ⟨23, _⟩ => ⟨S6400000, .i1⟩
  | .hbm, ⟨24, _⟩ => ⟨S_, .i32⟩
  | .hbm, ⟨25, _⟩ => ⟨S6400000, .i32⟩
  | .hbm, ⟨26, _⟩ => ⟨S6400000, .i32⟩
  | .hbm, ⟨27, _⟩ => ⟨S6400000, .i32⟩
  | .hbm, ⟨28, _⟩ => ⟨S6400000x1, .i32⟩
  | .hbm, ⟨29, _⟩ => ⟨S6400000, .f32⟩
  | .hbm, ⟨30, _⟩ => ⟨S6400000x1, .f32⟩
  | .hbm, ⟨31, _⟩ => ⟨S6400000, .f32⟩
  | .hbm, ⟨32, _⟩ => ⟨S6400000x1, .f32⟩
  | .hbm, ⟨33, _⟩ => ⟨S6400000, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S6400000, .f32⟩
  | .hbm, ⟨44, _⟩ => ⟨S6400000, .f32⟩
  | .hbm, ⟨45, _⟩ => ⟨S6400000, .f32⟩
  | .hbm, ⟨46, _⟩ => ⟨S6400000, .f32⟩
  | .hbm, ⟨47, _⟩ => ⟨S6400000x1, .f32⟩
  | .hbm, ⟨48, _⟩ => ⟨S6400000x1, .f32⟩
  | .hbm, ⟨49, _⟩ => ⟨S6400000x2, .f32⟩
  | .hbm, ⟨50, _⟩ => ⟨S6400000x1, .f32⟩
  | .hbm, ⟨51, _⟩ => ⟨S6400000x1, .f32⟩
  | .hbm, ⟨52, _⟩ => ⟨S6400000x2, .f32⟩
  | .hbm, ⟨53, _⟩ => ⟨S_, .f32⟩
  | .hbm, ⟨54, _⟩ => ⟨S100000x2, .f32⟩
  | .hbm, ⟨55, _⟩ => ⟨S6400000x1, .i32⟩
  | .hbm, ⟨56, _⟩ => ⟨S100000x2, .f32⟩
  | .hbm, ⟨57, _⟩ => ⟨S_, .f32⟩
  | .hbm, ⟨58, _⟩ => ⟨S100000x2, .f32⟩
  | .hbm, ⟨59, _⟩ => ⟨S6400000x1, .i32⟩
  | .hbm, ⟨60, _⟩ => ⟨S100000x2, .f32⟩
  | .hbm, ⟨61, _⟩ => ⟨S_, .i32⟩
  | .hbm, ⟨62, _⟩ => ⟨S6400000, .i32⟩
  | .hbm, ⟨63, _⟩ => ⟨S6400000, .i1⟩
  | .hbm, ⟨64, _⟩ => ⟨S_, .i32⟩
  | .hbm, ⟨65, _⟩ => ⟨S6400000, .i32⟩
  | .hbm, ⟨66, _⟩ => ⟨S6400000, .i32⟩
  | .hbm, ⟨67, _⟩ => ⟨S6400000, .i32⟩
  | .hbm, ⟨68, _⟩ => ⟨S6400000x1, .i32⟩
  | .hbm, ⟨69, _⟩ => ⟨S6400000x2, .f32⟩
  | .hbm, ⟨70, _⟩ => ⟨S_, .i32⟩
  | .hbm, ⟨71, _⟩ => ⟨S6400000, .i32⟩
  | .hbm, ⟨72, _⟩ => ⟨S6400000, .i1⟩
  | .hbm, ⟨73, _⟩ => ⟨S_, .i32⟩
  | .hbm, ⟨74, _⟩ => ⟨S6400000, .i32⟩
  | .hbm, ⟨75, _⟩ => ⟨S6400000, .i32⟩
  | .hbm, ⟨76, _⟩ => ⟨S6400000, .i32⟩
  | .hbm, ⟨77, _⟩ => ⟨S6400000x1, .i32⟩
  | .hbm, ⟨78, _⟩ => ⟨S6400000x2, .f32⟩
  | .hbm, ⟨79, _⟩ => ⟨S6400000x1, .f32⟩
  | .hbm, ⟨80, _⟩ => ⟨S6400000, .f32⟩
  | .hbm, ⟨81, _⟩ => ⟨S50000x128, .f32⟩
  | .hbm, ⟨82, _⟩ => ⟨S6400000x1, .f32⟩
  | .hbm, ⟨83, _⟩ => ⟨S6400000, .f32⟩
  | .hbm, ⟨84, _⟩ => ⟨S50000x128, .f32⟩
  | .hbm, ⟨85, _⟩ => ⟨S6400000x1, .f32⟩
  | .hbm, ⟨86, _⟩ => ⟨S6400000, .f32⟩
  | .hbm, ⟨87, _⟩ => ⟨S50000x128, .f32⟩
  | .hbm, ⟨88, _⟩ => ⟨S6400000x1, .f32⟩
  | .hbm, ⟨89, _⟩ => ⟨S6400000, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S6400000, .f32⟩
  | .hbm, ⟨94, _⟩ => ⟨S6400000, .f32⟩
  | .hbm, ⟨95, _⟩ => ⟨S6400000x1, .f32⟩
  | .hbm, ⟨96, _⟩ => ⟨S6400000x1, .f32⟩
  | .hbm, ⟨97, _⟩ => ⟨S6400000x2, .f32⟩
  | .hbm, ⟨98, _⟩ => ⟨S_, .f32⟩
  | .hbm, ⟨99, _⟩ => ⟨S100000x2, .f32⟩
  | .hbm, ⟨100, _⟩ => ⟨S6400000x1, .i32⟩
  | .hbm, ⟨101, _⟩ => ⟨S100000x2, .f32⟩
  | .hbm, ⟨102, _⟩ => ⟨S100000x2, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | _, _ => ⟨S2x6400000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev main_v29_2 : Ref sig .tc := ⟨.hbm, 41, rfl⟩
abbrev main_v29_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_3 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_4 : Ref sig .tc := ⟨.hbm, 61, rfl⟩
abbrev main_v46 : Ref sig .tc := ⟨.hbm, 62, rfl⟩
abbrev main_v47 : Ref sig .tc := ⟨.hbm, 63, rfl⟩
abbrev main_c_5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_6 : Ref sig .tc := ⟨.hbm, 70, rfl⟩
abbrev main_v53 : Ref sig .tc := ⟨.hbm, 71, rfl⟩
abbrev main_v54 : Ref sig .tc := ⟨.hbm, 72, rfl⟩
abbrev main_c_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72_0 : Ref sig .tc := ⟨.hbm, 91, rfl⟩
abbrev main_v72_1 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_8 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  slices_S6400000x2_S6400000x1_0_0 : S6400000x2.Slices ![0, 0] S6400000x1
  shapeCasts_S6400000x1_S6400000 : S6400000x1.ShapeCasts S6400000
  slices_S6400000x2_S6400000x1_0_1 : S6400000x2.Slices ![0, 1] S6400000x1
  shapeCasts_S6400000_S50000x128 : S6400000.ShapeCasts S50000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  shapeCasts_S50000x128_S6400000 : S50000x128.ShapeCasts S6400000
  concatenates_S6400000x1_S6400000x1_S6400000x2_d1 : Shape.Concatenates [S6400000x1, S6400000x1] S6400000x2 1
  bcast_S_S100000x2 : S_.BroadcastsInDim S100000x2 (![] : Fin 0 → Fin S100000x2.rank)
  gather_S100000_S6400000x1_S6400000_n_0_n_n_0_1_1_wf : GatherDims.WF S100000 S6400000x1 S6400000 [] [0] [] [0] [] 1 ![1]
  scatter_S100000x2_S6400000x1_S6400000x2_1_0_0_1_wf : ScatterDims.WF S100000x2 S6400000x1 S6400000x2 [1] [0] [0] 1
  gather_S100000x2_S6400000x1_S6400000x2_1_0_n_n_0_1_12_wf : GatherDims.WF S100000x2 S6400000x1 S6400000x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def scatter_S100000x2_S6400000x1_S6400000x2_1_0_0_1 : ScatterDims S100000x2 S6400000x1 S6400000x2 where
  updateWindowDims := [1]
  insertedWindowDims := [0]
  scatterDimsToOperandDims := [0]
  indexVectorDim := 1
  wf := scatter_S100000x2_S6400000x1_S6400000x2_1_0_0_1_wf
def gather_S100000x2_S6400000x1_S6400000x2_1_0_n_n_0_1_12 : GatherDims S100000x2 S6400000x1 S6400000x2 where
  offsetDims := [1]
  collapsedSliceDims := [0]
  operandBatchingDims := []
  startIndicesBatchingDims := []
  startIndexMap := [0]
  indexVectorDim := 1
  sliceSizes := ![1, 2]
  wf := gather_S100000x2_S6400000x1_S6400000x2_1_0_n_n_0_1_12_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v29_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v29_1) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v29_2) S2000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v29_3) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v62) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v68) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v71) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v72_0) S2000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v72_1) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x6400000 : Shape := ⟨2, ![2, 6400000]⟩
abbrev S100000 : Shape := ⟨1, ![100000]⟩
abbrev S6400000 : Shape := ⟨1, ![6400000]⟩
abbrev S6400000x2 : Shape := ⟨2, ![6400000, 2]⟩
abbrev S1x6400000 : Shape := ⟨2, ![1, 6400000]⟩
abbrev S_ : Shape := ⟨0, ![]⟩
abbrev S6400000x1 : Shape := ⟨2, ![6400000, 1]⟩
abbrev S100000x2 : Shape := ⟨2, ![100000, 2]⟩

abbrev nBuf : Space → Nat
  | .hbm => 140
  | .vmem => 0
  | .smem => 0
  | _ => 0

abbrev hbmTy0_0 (i : Nat) : BufTy := match i % 128 with
  | 0 => ⟨S2x6400000, .i32⟩
  | 1 => ⟨S100000, .f32⟩
  | 2 => ⟨S100000, .f32⟩
  | 3 => ⟨S100000, .f32⟩
  | 4 => ⟨S6400000, .f32⟩
  | 5 => ⟨S6400000x2, .f32⟩
  | 6 => ⟨S1x6400000, .i32⟩
  | 7 => ⟨S6400000, .i32⟩
  | 8 => ⟨S1x6400000, .i32⟩
  | 9 => ⟨S6400000, .i32⟩
  | 10 => ⟨S_, .i32⟩
  | 11 => ⟨S6400000, .i32⟩
  | 12 => ⟨S6400000, .i1⟩
  | 13 => ⟨S_, .i32⟩
  | 14 => ⟨S6400000, .i32⟩
  | 15 => ⟨S6400000, .i32⟩
  | 16 => ⟨S6400000, .i32⟩
  | 17 => ⟨S6400000x1, .i32⟩
  | 18 => ⟨S6400000, .f32⟩
  | 19 => ⟨S_, .i32⟩
  | 20 => ⟨S6400000, .i32⟩
  | 21 => ⟨S6400000, .i1⟩
  | 22 => ⟨S_, .i32⟩
  | 23 => ⟨S6400000, .i32⟩
  | 24 => ⟨S6400000, .i32⟩
  | 25 => ⟨S6400000, .i32⟩
  | 26 => ⟨S6400000x1, .i32⟩
  | 27 => ⟨S6400000, .f32⟩
  | 28 => ⟨S6400000, .f32⟩
  | 29 => ⟨S_, .f32⟩
  | 30 => ⟨S6400000, .f32⟩
  | 31 => ⟨S6400000, .f32⟩
  | 32 => ⟨S_, .f32⟩
  | 33 => ⟨S6400000, .f32⟩
  | 34 => ⟨S6400000, .f32⟩
  | 35 => ⟨S_, .f32⟩
  | 36 => ⟨S_, .f32⟩
  | 37 => ⟨S6400000, .f32⟩
  | 38 => ⟨S6400000, .f32⟩
  | 39 => ⟨S6400000, .f32⟩
  | 40 => ⟨S6400000, .f32⟩
  | 41 => ⟨S6400000, .f32⟩
  | 42 => ⟨S_, .f32⟩
  | 43 => ⟨S6400000, .f32⟩
  | 44 => ⟨S6400000, .f32⟩
  | 45 => ⟨S_, .f32⟩
  | 46 => ⟨S6400000, .f32⟩
  | 47 => ⟨S6400000, .f32⟩
  | 48 => ⟨S6400000x1, .f32⟩
  | 49 => ⟨S6400000x2, .f32⟩
  | 50 => ⟨S6400000x2, .f32⟩
  | 51 => ⟨S6400000x1, .f32⟩
  | 52 => ⟨S6400000x2, .f32⟩
  | 53 => ⟨S6400000x2, .f32⟩
  | 54 => ⟨S_, .f32⟩
  | 55 => ⟨S100000x2, .f32⟩
  | 56 => ⟨S6400000x1, .i32⟩
  | 57 => ⟨S100000x2, .f32⟩
  | 58 => ⟨S_, .f32⟩
  | 59 => ⟨S100000x2, .f32⟩
  | 60 => ⟨S100000x2, .f32⟩
  | 61 => ⟨S_, .i32⟩
  | 62 => ⟨S6400000, .i32⟩
  | 63 => ⟨S6400000, .i1⟩
  | 64 => ⟨S_, .i32⟩
  | 65 => ⟨S6400000, .i32⟩
  | 66 => ⟨S6400000, .i32⟩
  | 67 => ⟨S6400000, .i32⟩
  | 68 => ⟨S6400000x1, .i32⟩
  | 69 => ⟨S6400000x2, .f32⟩
  | 70 => ⟨S_, .i32⟩
  | 71 => ⟨S6400000, .i32⟩
  | 72 => ⟨S6400000, .i1⟩
  | 73 => ⟨S_, .i32⟩
  | 74 => ⟨S6400000, .i32⟩
  | 75 => ⟨S6400000, .i32⟩
  | 76 => ⟨S6400000, .i32⟩
  | 77 => ⟨S6400000x1, .i32⟩
  | 78 => ⟨S6400000x2, .f32⟩
  | 79 => ⟨S6400000x2, .f32⟩
  | 80 => ⟨S_, .f32⟩
  | 81 => ⟨S100000x2, .f32⟩
  | 82 => ⟨S6400000x1, .i32⟩
  | 83 => ⟨S100000x2, .f32⟩
  | 84 => ⟨S_, .f32⟩
  | 85 => ⟨S100000x2, .f32⟩
  | 86 => ⟨S100000x2, .f32⟩
  | 87 => ⟨S_, .i32⟩
  | 88 => ⟨S6400000, .i32⟩
  | 89 => ⟨S6400000, .i1⟩
  | 90 => ⟨S_, .i32⟩
  | 91 => ⟨S6400000, .i32⟩
  | 92 => ⟨S6400000, .i32⟩
  | 93 => ⟨S6400000, .i32⟩
  | 94 => ⟨S6400000x1, .i32⟩
  | 95 => ⟨S6400000, .f32⟩
  | 96 => ⟨S_, .i32⟩
  | 97 => ⟨S6400000, .i32⟩
  | 98 => ⟨S6400000, .i1⟩
  | 99 => ⟨S_, .i32⟩
  | 100 => ⟨S6400000, .i32⟩
  | 101 => ⟨S6400000, .i32⟩
  | 102 => ⟨S6400000, .i32⟩
  | 103 => ⟨S6400000x1, .i32⟩
  | 104 => ⟨S6400000, .f32⟩
  | 105 => ⟨S6400000, .f32⟩
  | 106 => ⟨S_, .f32⟩
  | 107 => ⟨S6400000, .f32⟩
  | 108 => ⟨S6400000, .f32⟩
  | 109 => ⟨S6400000, .f32⟩
  | 110 => ⟨S6400000, .f32⟩
  | 111 => ⟨S6400000, .f32⟩
  | 112 => ⟨S6400000, .f32⟩
  | 113 => ⟨S6400000, .f32⟩
  | 114 => ⟨S_, .f32⟩
  | 115 => ⟨S6400000, .f32⟩
  | 116 => ⟨S6400000, .f32⟩
  | 117 => ⟨S_, .f32⟩
  | 118 => ⟨S6400000, .f32⟩
  | 119 => ⟨S6400000, .f32⟩
  | 120 => ⟨S_, .f32⟩
  | 121 => ⟨S6400000, .f32⟩
  | 122 => ⟨S6400000, .f32⟩
  | 123 => ⟨S_, .f32⟩
  | 124 => ⟨S6400000, .f32⟩
  | 125 => ⟨S6400000, .i1⟩
  | 126 => ⟨S6400000, .f32⟩
  | 127 => ⟨S6400000, .f32⟩
  | _ => ⟨S2x6400000, .i32⟩

abbrev hbmTy0_1 (i : Nat) : BufTy := match i % 128 with
  | 0 => ⟨S6400000, .f32⟩
  | 1 => ⟨S6400000x1, .f32⟩
  | 2 => ⟨S6400000x2, .f32⟩
  | 3 => ⟨S6400000x2, .f32⟩
  | 4 => ⟨S_, .f32⟩
  | 5 => ⟨S100000x2, .f32⟩
  | 6 => ⟨S6400000x1, .i32⟩
  | 7 => ⟨S100000x2, .f32⟩
  | 8 => ⟨S_, .f32⟩
  | 9 => ⟨S100000x2, .f32⟩
  | 10 => ⟨S100000x2, .f32⟩
  | 11 => ⟨S100000x2, .f32⟩
  | _ => ⟨S2x6400000, .i32⟩

abbrev hbmTy (i : Nat) : BufTy := match i / 128 with
  | 0 => hbmTy0_0 i
  | 1 => hbmTy0_1 i
  | _ => ⟨S2x6400000, .i32⟩

abbrev bufTy : (tb : Table) → Fin (tcTables nBuf tb) → BufTy
  | .hbm, ⟨i, _⟩ => hbmTy i
  | _, _ => ⟨S2x6400000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_c_9 : Ref sig .tc := ⟨.hbm, 61, rfl⟩
abbrev main_v42 : Ref sig .tc := ⟨.hbm, 62, rfl⟩
abbrev main_v43 : Ref sig .tc := ⟨.hbm, 63, rfl⟩
abbrev main_c_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_c_12 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_14 : Ref sig .tc := ⟨.hbm, 84, rfl⟩
abbrev main_v60 : Ref sig .tc := ⟨.hbm, 85, rfl⟩
abbrev main_v61 : Ref sig .tc := ⟨.hbm, 86, rfl⟩
abbrev main_c_15 : Ref sig .tc := ⟨.hbm, 87, rfl⟩
abbrev main_v62 : Ref sig .tc := ⟨.hbm, 88, rfl⟩
abbrev main_v63 : Ref sig .tc := ⟨.hbm, 89, rfl⟩
abbrev main_c_16 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_17 : Ref sig .tc := ⟨.hbm, 96, rfl⟩
abbrev main_v69 : Ref sig .tc := ⟨.hbm, 97, rfl⟩
abbrev main_v70 : Ref sig .tc := ⟨.hbm, 98, rfl⟩
abbrev main_c_18 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_19 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_20 : Ref sig .tc := ⟨.hbm, 114, rfl⟩
abbrev main_v84 : Ref sig .tc := ⟨.hbm, 115, rfl⟩
abbrev main_v85 : Ref sig .tc := ⟨.hbm, 116, rfl⟩
abbrev main_cst_21 : Ref sig .tc := ⟨.hbm, 117, rfl⟩
abbrev main_v86 : Ref sig .tc := ⟨.hbm, 118, rfl⟩
abbrev main_v87 : Ref sig .tc := ⟨.hbm, 119, rfl⟩
abbrev main_cst_22 : Ref sig .tc := ⟨.hbm, 120, rfl⟩
abbrev main_v88 : Ref sig .tc := ⟨.hbm, 121, rfl⟩
abbrev main_v89 : Ref sig .tc := ⟨.hbm, 122, rfl⟩
abbrev main_cst_23 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_24 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_25 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S6400000x1_S6400000x2_0_1 : S6400000x1.BroadcastsInDim S6400000x2 (![0, 1] : Fin 2 → Fin S6400000x2.rank)
  bcast_S_S100000x2 : S_.BroadcastsInDim S100000x2 (![] : Fin 0 → Fin S100000x2.rank)
  gather_S100000_S6400000x1_S6400000_n_0_n_n_0_1_1_wf : GatherDims.WF S100000 S6400000x1 S6400000 [] [0] [] [0] [] 1 ![1]
  scatter_S100000x2_S6400000x1_S6400000x2_1_0_0_1_wf : ScatterDims.WF S100000x2 S6400000x1 S6400000x2 [1] [0] [0] 1
  gather_S100000x2_S6400000x1_S6400000x2_1_0_n_n_0_1_12_wf : GatherDims.WF S100000x2 S6400000x1 S6400000x2 [1] [0] [] [0] [] 1 ![1, 2]

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def scatter_S100000x2_S6400000x1_S6400000x2_1_0_0_1 : ScatterDims S100000x2 S6400000x1 S6400000x2 where
  updateWindowDims := [1]
  insertedWindowDims := [0]
  scatterDimsToOperandDims := [0]
  indexVectorDim := 1
  wf := scatter_S100000x2_S6400000x1_S6400000x2_1_0_0_1_wf
def gather_S100000x2_S6400000x1_S6400000x2_1_0_n_n_0_1_12 : GatherDims S100000x2 S6400000x1 S6400000x2 where
  offsetDims := [1]
  collapsedSliceDims := [0]
  operandBatchingDims := []
  startIndicesBatchingDims := []
  startIndexMap := [0]
  indexVectorDim := 1
  sliceSizes := ![1, 2]
  wf := gather_S100000x2_S6400000x1_S6400000x2_1_0_n_n_0_1_12_wf

class Facts : Prop extends Facts₀ where

variable [Facts]
-- ==== Proof.Spec.lean ====
/-
  The specification both programs are read against.

  Nodes k < 100000, edges e < 6400000, two components d. An edge (i e, j e) carries a radial distance q e and a direction
  dist (e, d). With  fac_n = A[j] / D[j],  fac_c = A[j] * R[j],  dW q = C * (-20 q max(0, 1 - q)^3) / h  and the cohesion
  polynomial  sel q  (two branches at q <= 1/2), the result at node n, component d is

     - sum_{e -> n} (normals[i e, d] - normals[j e, d])  -  sum_{e -> n} fac_c e * (- sel (q e)) * dist (e, d),
     normals[n, d] = h * sum_{e -> n} fac_n e * dW (q e) * dist (e, d),

  "e -> n" being the scatter-add's landing relation on the raw index i e. One program scales every update by h and by -1
  BEFORE the segment sums (K below), the other scales the sums (R below). The gathers and the scatter-add are kept as the
  operators the programs apply, at dimension numbers and index columns stated once here: what matters is that a gather
  reads one element of its table and that a scatter-add into zeros is a finite sum over a fixed set of updates.
-/
import Idealize.ShloMosaic.PureOps.Ideal
import Idealize.ShloMosaic.Lib.ValueIdx

noncomputable section

namespace Cert.Spec

open Idealize.ShloMosaic Idealize.ShloMosaic.ValueIdx

/-! ## Shapes, dimension numbers, side conditions -/

abbrev S0 : Shape := ⟨0, ![]⟩
abbrev SNB : Shape := ⟨2, ![2, 6400000]⟩
abbrev S1E : Shape := ⟨2, ![1, 6400000]⟩
abbrev SN : Shape := ⟨1, ![100000]⟩
abbrev SE : Shape := ⟨1, ![6400000]⟩
abbrev SE1 : Shape := ⟨2, ![6400000, 1]⟩
abbrev SE2 : Shape := ⟨2, ![6400000, 2]⟩
abbrev SN2 : Shape := ⟨2, ![100000, 2]⟩

theorem sl0 : SNB.Slices ![0, 0] S1E := by decide
theorem sl1 : SNB.Slices ![1, 0] S1E := by decide
theorem sc1 : S1E.ShapeCasts SE := by decide
theorem bc0 : S0.BroadcastsInDim SE (![] : Fin 0 → Fin SE.rank) := by decide
theorem bc1 : SE.BroadcastsInDim SE1 (![0] : Fin 1 → Fin SE1.rank) := by decide
theorem gd1_wf : GatherDims.WF SN SE1 SE [] [0] [] [0] [] 1 ![1] := by decide
theorem gd2_wf : GatherDims.WF SN2 SE1 SE2 [1] [0] [] [0] [] 1 ![1, 2] := by decide
theorem sd_wf : ScatterDims.WF SN2 SE1 SE2 [1] [0] [0] 1 := by decide

/-- x[idx] for a table x : [N] and a column of E indices. -/
def gd1 : GatherDims SN SE1 SE where
  offsetDims := []
  collapsedSliceDims := [0]
  operandBatchingDims := []
  startIndicesBatchingDims := []
  startIndexMap := [0]
  indexVectorDim := 1
  sliceSizes := ![1]
  wf := gd1_wf

/-- x[idx] for a table x : [N, 2] of rows. -/
def gd2 : GatherDims SN2 SE1 SE2 where
  offsetDims := [1]
  collapsedSliceDims := [0]
  operandBatchingDims := []
  startIndicesBatchingDims := []
  startIndexMap := [0]
  indexVectorDim := 1
  sliceSizes := ![1, 2]
  wf := gd2_wf

/-- segment_sum of [E, 2] rows into [N, 2]. -/
def sd : ScatterDims SN2 SE1 SE2 where
  updateWindowDims := [1]
  insertedWindowDims := [0]
  scatterDimsToOperandDims := [0]
  indexVectorDim := 1
  wf := sd_wf

/-! ## The index columns, from the [2, E] neighbour array -/

/-- Row 0 of the neighbour array: the edges' first endpoints i. -/
def iVec (nb : IVec SNB 32) : IVec SE 32 := shapeCast SE (extractStridedSlice S1E ![0, 0] nb sl0) sc1
/-- Row 1: the second endpoints j. -/
def jVec (nb : IVec SNB 32) : IVec SE 32 := shapeCast SE (extractStridedSlice S1E ![1, 0] nb sl1) sc1
/-- A negative index counts from the end: v < 0 ? v + N : v. -/
def wrapVec (v : IVec SE 32) : IVec SE 32 :=
  (select (cmpi .slt v (broadcastInDim SE ![] bc0 (constantI S0 32 0#32)))
    (addi v (broadcastInDim SE ![] bc0 (constantI S0 32 100000#32))) v : IVec SE 32)
/-- A vector of E indices as the [E, 1] column a gather or scatter takes. -/
def col (v : IVec SE 32) : IVec SE1 32 := broadcastInDim SE1 ![0] bc1 v

/-- What both programs are functions of: the three index columns and the float arrays. -/
structure Args where
  /-- the scatter-add's column: the raw i -/
  iRaw : IVec SE1 32
  /-- the row gather's column at i (wrapped) -/
  iN : IVec SE1 32
  /-- the gathers' column at j (wrapped) -/
  jN : IVec SE1 32
  A : SN.Idx → EReal
  D : SN.Idx → EReal
  R : SN.Idx → EReal
  q : SE.Idx → EReal
  dist : SE2.Idx → EReal

/-- The arguments as @main's six arrays give them. -/
def mkArgs (nb : IVec SNB 32) (A D R : SN.Idx → EReal) (q : SE.Idx → EReal) (dist : SE2.Idx → EReal) : Args :=
  ⟨col (iVec nb), col (wrapVec (iVec nb)), col (wrapVec (jVec nb)), A, D, R, q, dist⟩

/-! ## The scalar terms -/

abbrev k0 : EReal := Ideal.ofBits .f32 0x00000000#32
abbrev k1 : EReal := Ideal.ofBits .f32 0x3F800000#32
abbrev kHalf : EReal := Ideal.ofBits .f32 0x3F000000#32
abbrev k64 : EReal := Ideal.ofBits .f32 0x42800000#32
abbrev k128 : EReal := Ideal.ofBits .f32 0x43000000#32
abbrev kM1 : EReal := Ideal.ofBits .f32 0xBF800000#32
abbrev kM20 : EReal := Ideal.ofBits .f32 0xC1A00000#32
abbrev kC : EReal := Ideal.ofBits .f32 0x445ED122#32
abbrev kH : EReal := Ideal.ofBits .f32 0x3D4CCCCD#32

/-- The kernel gradient's radial factor  C * ((-20 q) * max(0, 1 - q)^3) / h. -/
def dW (x : EReal) : EReal :=
  Ideal.div (kC * ((kM20 * x) * ((max k0 (k1 - x) * max k0 (k1 - x)) * max k0 (k1 - x)))) kH

/-- (q - 1)^3 q^3. -/
def poly (x : EReal) : EReal := (((x - k1) * (x - k1)) * (x - k1)) * ((x * x) * x)

/-- The cohesion polynomial's two branches. -/
def sel (x : EReal) : EReal := if x ≤ kHalf then k128 * poly x + k1 else k64 * poly x

/-! ## The operators -/

/-- The edge of an [E, 2] index. -/
def e1 (y : SE2.Idx) : SE.Idx := ix1 (⟨(y 0).val, idx2_lt0 y⟩ : Fin 6400000)

variable (a : Args)

/-- A node table read at the edges' j. -/
def takeJ (x : SN.Idx → EReal) : SE.Idx → EReal := Host.gather gd1 x a.jN
/-- A table of node rows read at the edges' i, and at their j. -/
def rowsI (x : SN2.Idx → EReal) : SE2.Idx → EReal := Host.gather gd2 x a.iN
def rowsJ (x : SN2.Idx → EReal) : SE2.Idx → EReal := Host.gather gd2 x a.jN
/-- The segment sum of edge rows into node rows (from zero). -/
def seg (u : SE2.Idx → EReal) : SN2.Idx → EReal := Ideal.hostScatterAdd sd (fun _ => (0 : EReal)) a.iRaw u

/-! ## The kernel's function: every update scaled before its segment sum -/

def facnK : SE.Idx → EReal := takeJ a (fun k => Ideal.div (a.A k) (a.D k))
def faccK : SE.Idx → EReal := takeJ a (fun k => a.A k * a.R k)
def c1K : SE2.Idx → EReal := fun y => ((kH * facnK a (e1 y)) * dW (a.q (e1 y))) * a.dist y
def c2K : SE2.Idx → EReal := fun y => ((kM1 * faccK a (e1 y)) * (k0 - sel (a.q (e1 y)))) * a.dist y
def normalsK : SN2.Idx → EReal := seg a (c1K a)
def dK : SE2.Idx → EReal := fun y => kM1 * (rowsI a (normalsK a) y - rowsJ a (normalsK a) y)
def K : SN2.Idx → EReal := fun z => seg a (dK a) z + seg a (c2K a) z

/-! ## The reference's function: the segment sums scaled -/

def t1 : SE2.Idx → EReal := fun y =>
  Ideal.div (takeJ a a.A (e1 y)) (takeJ a a.D (e1 y)) * (dW (a.q (e1 y)) * a.dist y)
def normalsR : SN2.Idx → EReal := fun z => kH * seg a (t1 a) z
def dR : SE2.Idx → EReal := fun y => rowsI a (normalsR a) y - rowsJ a (normalsR a) y
def t2 : SE2.Idx → EReal := fun y =>
  ((takeJ a a.A (e1 y) * takeJ a a.R (e1 y)) * (-(sel (a.q (e1 y))))) * a.dist y
def R : SN2.Idx → EReal := fun z => kM1 * seg a (dR a) z + kM1 * seg a (t2 a) z

/-! ## The domain: finite floats, and no zero density at an edge's j -/

structure Finite : Prop where
  A : ∀ k, ∃ r : ℝ, a.A k = (r : EReal)
  D : ∀ k, ∃ r : ℝ, a.D k = (r : EReal)
  R : ∀ k, ∃ r : ℝ, a.R k = (r : EReal)
  q : ∀ e, ∃ r : ℝ, a.q e = (r : EReal)
  dist : ∀ y, ∃ r : ℝ, a.dist y = (r : EReal)
  Dj_ne : ∀ e, takeJ a a.D e ≠ 0

end Cert.Spec

end
-- ==== Proof.KArgs.lean ====
/-
  The specification's arguments as the kernel program's launch memory gives them.
-/
import proofs.«144629_j47021301957211_1_alg».proof.KernelIdeal
import proofs.«144629_j47021301957211_1_alg».proof.Proof.Spec

noncomputable section

open Idealize.ShloMosaic Idealize.ShloMosaic.TcCoe Idealize.ShloMosaic.ValueIdx Idealize.SL.Sem
open Cert.KernelIdeal

namespace Cert.KernelIdeal

/-- The six argument arrays of core c at launch, as the specification's arguments. -/
def argsK (m : (ℓ : Loc nD τ sig) → Buf (Elt Ideal) ℓ) (c : Dev nD) : Cert.Spec.Args :=
  Cert.Spec.mkArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

end Cert.KernelIdeal

end
-- ==== Proof.Flat.lean ====
/-
  The three index spaces an edge quantity lives on, and the maps between them: row r, lane l of the [50000, 128] layout is
  edge r * 128 + l; component d of edge e is entry (e, d) of an [E, 2] array.
-/
import proofs.«144629_j47021301957211_1_alg».proof.Proof.Spec

noncomputable section

namespace Cert.Spec

open Idealize.ShloMosaic Idealize.ShloMosaic.ValueIdx

abbrev S2D : Shape := ⟨2, ![50000, 128]⟩

/-- The edge at row r, lane l: r * 128 + l. -/
def fl (i : S2D.Idx) : SE.Idx :=
  ix1 (⟨(i 0).val * 128 + (i 1).val, by have h0 := idx2_lt0 i; have h1 := idx2_lt1 i; omega⟩ : Fin 6400000)

/-- Row e / 128, lane e % 128 of edge e. -/
def unfl (e : SE.Idx) : S2D.Idx :=
  ix2 (⟨(e 0).val / 128, by have h : (e 0).val < 6400000 := (e 0).isLt; omega⟩ : Fin 50000)
    (⟨(e 0).val % 128, Nat.mod_lt _ (by decide)⟩ : Fin 128)

/-- Entry (e, d) of an [E, 2] array. -/
def pair (e : SE.Idx) (d : Fin 2) : SE2.Idx := ix2 (⟨(e 0).val, (e 0).isLt⟩ : Fin 6400000) d

/-- The component of an [E, 2] index. -/
def d1 (y : SE2.Idx) : Fin 2 := ⟨(y 1).val, idx2_lt1 y⟩

theorem fl_unfl (e : SE.Idx) : fl (unfl e) = e := by
  funext d
  match d with
  | ⟨0, _⟩ =>
    apply Fin.ext
    show (e 0).val / 128 * 128 + (e 0).val % 128 = (e 0).val
    omega
theorem unfl_fl (i : S2D.Idx) : unfl (fl i) = i := by
  have h1 := idx2_lt1 i
  funext d
  match d with
  | ⟨0, _⟩ =>
    apply Fin.ext
    show ((i 0).val * 128 + (i 1).val) / 128 = (i 0).val
    omega
  | ⟨1, _⟩ =>
    apply Fin.ext
    show ((i 0).val * 128 + (i 1).val) % 128 = (i 1).val
    omega
theorem e1_pair (e : SE.Idx) (d : Fin 2) : e1 (pair e d) = e := by
  funext c
  match c with
  | ⟨0, _⟩ => rfl
theorem d1_pair (e : SE.Idx) (d : Fin 2) : d1 (pair e d) = d := rfl
theorem pair_e1_d1 (y : SE2.Idx) : pair (e1 y) (d1 y) = y := by
  funext c
  match c with
  | ⟨0, _⟩ => rfl
  | ⟨1, _⟩ => rfl

end Cert.Spec

end
-- ==== Proof.Region0.lean ====
/-
  The first kernel region as whole-array functions: every output array after the region, entry by entry, from the five
  input arrays as the region finds them. The body is pointwise and every window has the same blocks, so entry i of an
  output is the body's scalar expression of the inputs' entries i.
-/
import proofs.«144629_j47021301957211_1_alg».proof.Proof.Gen.KernelIdeal.Frame
import proofs.«144629_j47021301957211_1_alg».proof.Proof.Spec
import Idealize.ShloMosaic.Lib.Pipeline.Value

noncomputable section

open Idealize.ShloMosaic Idealize.ShloMosaic.TcCoe Idealize.ShloMosaic.ValueIdx Idealize.SL.Sem
open Cert.KernelIdeal Cert.KernelIdeal.Gen

namespace Cert.KernelIdeal.Region0

variable (V : (c : Dev nD) → (b : Ref sig .tc) → Buf (Elt Ideal) ((c : Thread nD τ).loc b))

/-! ## The body's arithmetic at one entry of a block

Each store's payload, read at an entry y of the (2000, 128) block, over arbitrary block contents: q the radial distance,
fn and fc the two node factors gathered to the edges, d a direction component. -/

/-- A select on the comparison x ≤ y is the if on that order. -/
private theorem select_ole (x y a b : EReal) :
    Scalar.select (Ideal.cmp .ole x y) a b = if x ≤ y then a else b := by
  unfold Scalar.select Ideal.cmp
  by_cases h : x ≤ y <;> simp [h]

/-- The gradient term shared by the first two stores: (h * fn) * dW q. -/
private theorem grad_apply (q fn : Vec Ideal S2000x128 .f32) (y : S2000x128.Idx) :
    k0_pay8 (F := Ideal) q fn y = (Cert.Spec.kH * fn y) * Cert.Spec.dW (q y) := by
  unfold k0_pay8 k0_pay4 Cert.Spec.dW
  simp only [shapeCast_self]
  rfl

/-- The first store: the gradient term times the first direction component. -/
private theorem store5_apply (q fn d : Vec Ideal S2000x128 .f32) (y : S2000x128.Idx) :
    k0_pay9 (F := Ideal) q fn d y = ((Cert.Spec.kH * fn y) * Cert.Spec.dW (q y)) * d y := by
  unfold k0_pay9 k0_pay6
  simp only [shapeCast_self]
  show k0_pay8 (F := Ideal) q fn y * d y = _
  rw [grad_apply]

/-- The second store: the same term times the second component. -/
private theorem store6_apply (q fn d : Vec Ideal S2000x128 .f32) (y : S2000x128.Idx) :
    k0_pay10 (F := Ideal) q fn d y = ((Cert.Spec.kH * fn y) * Cert.Spec.dW (q y)) * d y := by
  unfold k0_pay10 k0_pay7
  simp only [shapeCast_self]
  show k0_pay8 (F := Ideal) q fn y * d y = _
  rw [grad_apply]

/-- The cohesion term over whatever two cubes it is handed, p their product:
    (-1 * fc) * (0 - (q ≤ 1/2 ? 128 p + 1 : 64 p)). -/
private theorem branch_apply (q fc a b : FVec Ideal S2000x128 .f32) (y : S2000x128.Idx) :
    k0_pay1 (F := Ideal) q fc a b y
      = (Cert.Spec.kM1 * fc y) * (Cert.Spec.k0 - (if q y ≤ Cert.Spec.kHalf then Cert.Spec.k128 * (a y * b y) + Cert.Spec.k1
          else Cert.Spec.k64 * (a y * b y))) := by
  unfold k0_pay1
  refine (?_ : _ = (Cert.Spec.kM1 * fc y) * (Cert.Spec.k0 - Scalar.select (Ideal.cmp .ole (q y) Cert.Spec.kHalf)
      (Cert.Spec.k128 * (a y * b y) + Cert.Spec.k1) (Cert.Spec.k64 * (a y * b y)))).trans ?_
  · rfl
  · rw [select_ole]

/-- With the cubes (q - 1)^3 and q^3 of the same q the branches are the cohesion polynomial's. -/
private theorem cohesion_apply (q fc : Vec Ideal S2000x128 .f32) (y : S2000x128.Idx) :
    k0_pay1 (F := Ideal) (k0_pay4 q) (k0_pay5 fc) (k0_pay11 q) (k0_pay12 q) y
      = (Cert.Spec.kM1 * fc y) * (Cert.Spec.k0 - Cert.Spec.sel (q y)) := by
  rw [branch_apply]
  unfold k0_pay4 k0_pay5 k0_pay11 k0_pay12 k0_pay4 Cert.Spec.sel Cert.Spec.poly
  simp only [shapeCast_self]
  rfl

/-- The third store: the cohesion term times the first direction component. -/
private theorem store7_apply (q fc d : Vec Ideal S2000x128 .f32) (y : S2000x128.Idx) :
    k0_pay2 (F := Ideal) (k0_pay4 q) (k0_pay5 fc) (k0_pay6 d) (k0_pay11 q) (k0_pay12 q) y
      = ((Cert.Spec.kM1 * fc y) * (Cert.Spec.k0 - Cert.Spec.sel (q y))) * d y := by
  unfold k0_pay2
  show k0_pay1 (F := Ideal) (k0_pay4 q) (k0_pay5 fc) (k0_pay11 q) (k0_pay12 q) y * k0_pay6 (F := Ideal) d y = _
  rw [cohesion_apply]
  unfold k0_pay6
  simp only [shapeCast_self]

/-- The fourth store: the same term times the second component. -/
private theorem store8_apply (q fc d : Vec Ideal S2000x128 .f32) (y : S2000x128.Idx) :
    k0_pay3 (F := Ideal) (k0_pay4 q) (k0_pay5 fc) (k0_pay7 d) (k0_pay11 q) (k0_pay12 q) y
      = ((Cert.Spec.kM1 * fc y) * (Cert.Spec.k0 - Cert.Spec.sel (q y))) * d y := by
  unfold k0_pay3
  show k0_pay1 (F := Ideal) (k0_pay4 q) (k0_pay5 fc) (k0_pay11 q) (k0_pay12 q) y * k0_pay7 (F := Ideal) d y = _
  rw [cohesion_apply]
  unfold k0_pay7
  simp only [shapeCast_self]

/-! ## From blocks to the arrays

Point t of the 25 works on rows 2000 t … 2000 t + 1999 of every array, all 128 lanes: the nine index maps are the same
function of the point. So what point t writes back is block t of one whole-array function, and row r is written by point
r / 2000. -/

private theorem hz : (![0, 0] : Fin 2 → Nat) = fun _ => 0 := funext fun a => by fin_cases a <;> rfl

/-- The output windows' index maps over the grid: the block of point t is block (t, 0). -/
private theorem idx_facts : ∀ t : Fin cfg0.N,
    (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- The point whose blocks hold row (i 0): (i 0) / 2000. -/
private def pointOf (i : S50000x128.Idx) : Fin cfg0.N :=
  ⟨(i 0).val / 2000, by have h : (i 0).val < 50000 := idx2_lt0 i; rw [show cfg0.N = 25 from N_0]; omega⟩

private theorem pointOf_val (i : S50000x128.Idx) : (pointOf i).val = (i 0).val / 2000 := rfl

/-! ### Window 5: the gradient term times the first direction component -/

private abbrev G5 (c : Dev nD) : S50000x128.Idx → EReal := fun i =>
  ((Cert.Spec.kH * V c main_v24 i) * Cert.Spec.dW (V c main_v26 i)) * V c main_v27 i

/-- What point t writes back is block t of G5: the three input blocks it reads are the same rows of their arrays. -/
private theorem flushed5_eq (c : Dev nD) (t : Fin cfg0.N) :
    (dat0 (F := Ideal) V c).flushed 5 t = ((cfg0.win 5).blk t).view.read (Elt Ideal) (G5 V c) := by
  show (cfg0.win 5).cut (grid0.coords t) ((dat0 (F := Ideal) V c).after 5 t) = _
  rw [after0_5]
  unfold out0_5
  rw [View.canon_unit_zero hz]
  simp only [View.ld_unit_zero (S := S2000x128) hz]
  funext j
  refine (store5_apply _ _ _ j).trans ?_
  rfl

/-- An entry is in point t's block iff each coordinate is in the block's range on its axis. -/
private theorem mem_blk5 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v29_0).slice (win0_5.rect t)).set ↔ _
  rw [View.set_slice_whole, Rect.mem_set_unit]
  exact Iff.rfl

/-- Every entry is written back by the point of its row. -/
private theorem cover5 (i : S50000x128.Idx) :
    ∃ t : Fin cfg0.N, (cfg0.win 5).flush t = true ∧ i ∈ ((cfg0.win 5).blk t).view.set := by
  have hi1 : (i 1).val < 128 := idx2_lt1 i
  have ht := pointOf_val i
  obtain ⟨⟨e0, e1⟩, -, -, -⟩ := idx_facts (pointOf i)
  refine ⟨pointOf i, flush0_5 _, ?_⟩
  rw [mem_blk5]
  intro a
  match a with
  | ⟨0, _⟩ => show win0_5.index (pointOf i) (0 : Fin 2) * 2000 ≤ (i 0).val ∧ (i 0).val < win0_5.index (pointOf i) (0 : Fin 2) * 2000 + 2000; omega
  | ⟨1, _⟩ => show win0_5.index (pointOf i) (1 : Fin 2) * 128 ≤ (i 1).val ∧ (i 1).val < win0_5.index (pointOf i) (1 : Fin 2) * 128 + 128; omega

theorem out5 (c : Dev nD) (i : S50000x128.Idx) :
    (dat0 (F := Ideal) V c).arrAt 5 cfg0.N i
      = ((Cert.Spec.kH * V c main_v24 i) * Cert.Spec.dW (V c main_v26 i)) * V c main_v27 i :=
  congrFun ((dat0 (F := Ideal) V c).arrAt_eq_of_cover 5 (G5 V c) (fun t _ => flushed5_eq V c t) cover5) i

/-! ### Window 6: the gradient term times the second direction component -/

private abbrev G6 (c : Dev nD) : S50000x128.Idx → EReal := fun i =>
  ((Cert.Spec.kH * V c main_v24 i) * Cert.Spec.dW (V c main_v26 i)) * V c main_v28 i

private theorem flushed6_eq (c : Dev nD) (t : Fin cfg0.N) :
    (dat0 (F := Ideal) V c).flushed 6 t = ((cfg0.win 6).blk t).view.read (Elt Ideal) (G6 V c) := by
  show (cfg0.win 6).cut (grid0.coords t) ((dat0 (F := Ideal) V c).after 6 t) = _
  rw [after0_6]
  unfold out0_6
  rw [View.canon_unit_zero hz]
  simp only [View.ld_unit_zero (S := S2000x128) hz]
  funext j
  refine (store6_apply _ _ _ j).trans ?_
  rfl

private theorem mem_blk6 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v29_1).slice (win0_6.rect t)).set ↔ _
  rw [View.set_slice_whole, Rect.mem_set_unit]
  exact Iff.rfl

private theorem cover6 (i : S50000x128.Idx) :
    ∃ t : Fin cfg0.N, (cfg0.win 6).flush t = true ∧ i ∈ ((cfg0.win 6).blk t).view.set := by
  have hi1 : (i 1).val < 128 := idx2_lt1 i
  have ht := pointOf_val i
  obtain ⟨-, ⟨e0, e1⟩, -, -⟩ := idx_facts (pointOf i)
  refine ⟨pointOf i, flush0_6 _, ?_⟩
  rw [mem_blk6]
  intro a
  match a with
  | ⟨0, _⟩ => show win0_6.index (pointOf i) (0 : Fin 2) * 2000 ≤ (i 0).val ∧ (i 0).val < win0_6.index (pointOf i) (0 : Fin 2) * 2000 + 2000; omega
  | ⟨1, _⟩ => show win0_6.index (pointOf i) (1 : Fin 2) * 128 ≤ (i 1).val ∧ (i 1).val < win0_6.index (pointOf i) (1 : Fin 2) * 128 + 128; omega

theorem out6 (c : Dev nD) (i : S50000x128.Idx) :
    (dat0 (F := Ideal) V c).arrAt 6 cfg0.N i
      = ((Cert.Spec.kH * V c main_v24 i) * Cert.Spec.dW (V c main_v26 i)) * V c main_v28 i :=
  congrFun ((dat0 (F := Ideal) V c).arrAt_eq_of_cover 6 (G6 V c) (fun t _ => flushed6_eq V c t) cover6) i

/-! ### Window 7: the cohesion term times the first direction component -/

private abbrev G7 (c : Dev nD) : S50000x128.Idx → EReal := fun i =>
  ((Cert.Spec.kM1 * V c main_v25 i) * (Cert.Spec.k0 - Cert.Spec.sel (V c main_v26 i))) * V c main_v27 i

private theorem flushed7_eq (c : Dev nD) (t : Fin cfg0.N) :
    (dat0 (F := Ideal) V c).flushed 7 t = ((cfg0.win 7).blk t).view.read (Elt Ideal) (G7 V c) := by
  show (cfg0.win 7).cut (grid0.coords t) ((dat0 (F := Ideal) V c).after 7 t) = _
  rw [after0_7]
  unfold out0_7
  rw [View.canon_unit_zero hz]
  simp only [View.ld_unit_zero (S := S2000x128) hz]
  funext j
  refine (store7_apply _ _ _ j).trans ?_
  rfl

private theorem mem_blk7 (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v29_2).slice (win0_7.rect t)).set ↔ _
  rw [View.set_slice_whole, Rect.mem_set_unit]
  exact Iff.rfl

private theorem cover7 (i : S50000x128.Idx) :
    ∃ t : Fin cfg0.N, (cfg0.win 7).flush t = true ∧ i ∈ ((cfg0.win 7).blk t).view.set := by
  have hi1 : (i 1).val < 128 := idx2_lt1 i
  have ht := pointOf_val i
  obtain ⟨-, -, ⟨e0, e1⟩, -⟩ := idx_facts (pointOf i)
  refine ⟨pointOf i, flush0_7 _, ?_⟩
  rw [mem_blk7]
  intro a
  match a with
  | ⟨0, _⟩ => show win0_7.index (pointOf i) (0 : Fin 2) * 2000 ≤ (i 0).val ∧ (i 0).val < win0_7.index (pointOf i) (0 : Fin 2) * 2000 + 2000; omega
  | ⟨1, _⟩ => show win0_7.index (pointOf i) (1 : Fin 2) * 128 ≤ (i 1).val ∧ (i 1).val < win0_7.index (pointOf i) (1 : Fin 2) * 128 + 128; omega

theorem out7 (c : Dev nD) (i : S50000x128.Idx) :
    (dat0 (F := Ideal) V c).arrAt 7 cfg0.N i
      = ((Cert.Spec.kM1 * V c main_v25 i) * (Cert.Spec.k0 - Cert.Spec.sel (V c main_v26 i))) * V c main_v27 i :=
  congrFun ((dat0 (F := Ideal) V c).arrAt_eq_of_cover 7 (G7 V c) (fun t _ => flushed7_eq V c t) cover7) i

/-! ### Window 8: the cohesion term times the second direction component -/

private abbrev G8 (c : Dev nD) : S50000x128.Idx → EReal := fun i =>
  ((Cert.Spec.kM1 * V c main_v25 i) * (Cert.Spec.k0 - Cert.Spec.sel (V c main_v26 i))) * V c main_v28 i

private theorem flushed8_eq (c : Dev nD) (t : Fin cfg0.N) :
    (dat0 (F := Ideal) V c).flushed 8 t = ((cfg0.win 8).blk t).view.read (Elt Ideal) (G8 V c) := by
  show (cfg0.win 8).cut (grid0.coords t) ((dat0 (F := Ideal) V c).after 8 t) = _
  rw [after0_8]
  unfold out0_8
  rw [View.canon_unit_zero hz]
  simp only [View.ld_unit_zero (S := S2000x128) hz]
  funext j
  refine (store8_apply _ _ _ j).trans ?_
  rfl

private theorem mem_blk8 (t : Fin cfg0.N) (i : S50000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v29_3).slice (win0_8.rect t)).set ↔ _
  rw [View.set_slice_whole, Rect.mem_set_unit]
  exact Iff.rfl

private theorem cover8 (i : S50000x128.Idx) :
    ∃ t : Fin cfg0.N, (cfg0.win 8).flush t = true ∧ i ∈ ((cfg0.win 8).blk t).view.set := by
  have hi1 : (i 1).val < 128 := idx2_lt1 i
  have ht := pointOf_val i
  obtain ⟨-, -, -, e0, e1⟩ := idx_facts (pointOf i)
  refine ⟨pointOf i, flush0_8 _, ?_⟩
  rw [mem_blk8]
  intro a
  match a with
  | ⟨0, _⟩ => show win0_8.index (pointOf i) (0 : Fin 2) * 2000 ≤ (i 0).val ∧ (i 0).val < win0_8.index (pointOf i) (0 : Fin 2) * 2000 + 2000; omega
  | ⟨1, _⟩ => show win0_8.index (pointOf i) (1 : Fin 2) * 128 ≤ (i 1).val ∧ (i 1).val < win0_8.index (pointOf i) (1 : Fin 2) * 128 + 128; omega

theorem out8 (c : Dev nD) (i : S50000x128.Idx) :
    (dat0 (F := Ideal) V c).arrAt 8 cfg0.N i
      = ((Cert.Spec.kM1 * V c main_v25 i) * (Cert.Spec.k0 - Cert.Spec.sel (V c main_v26 i))) * V c main_v28 i :=
  congrFun ((dat0 (F := Ideal) V c).arrAt_eq_of_cover 8 (G8 V c) (fun t _ => flushed8_eq V c t) cover8) i

end Cert.KernelIdeal.Region0

end
-- ==== Proof.Region1.lean ====
/-
  The second kernel region as whole-array functions: each output entry is -1 times the difference of two input entries.
-/
import proofs.«144629_j47021301957211_1_alg».proof.Proof.Gen.KernelIdeal.Frame
import proofs.«144629_j47021301957211_1_alg».proof.Proof.Spec
import Idealize.ShloMosaic.Lib.Pipeline.Value
import Idealize.ShloMosaic.Lib.ValueIdx

noncomputable section

open Idealize.ShloMosaic Idealize.ShloMosaic.TcCoe Idealize.ShloMosaic.ValueIdx Idealize.SL.Sem
open Cert.KernelIdeal Cert.KernelIdeal.Gen

namespace Cert.KernelIdeal.Region1

variable (V : (c : Dev nD) → (b : Ref sig .tc) → Buf (Elt Ideal) ((c : Thread nD τ).loc b))

/-- The zero offsets of a whole-block access. -/
private theorem hz : (![0, 0] : Fin 2 → Nat) = fun _ => 0 := funext fun a => by fin_cases a <;> rfl

/-- The whole-array function both outputs are instances of: -1 times the difference, entry by entry. -/
private abbrev negDiff (a b : S50000x128.Idx → EReal) : S50000x128.Idx → EReal :=
  fun i => Cert.Spec.kM1 * HSub.hSub (α := EReal) (β := EReal) (γ := EReal) (a i) (b i)

/-- The first store's payload at an entry of the block. -/
private theorem pay1_apply (x0 x4 : Vec Ideal S2000x128 .f32) (j : S2000x128.Idx) :
    k1_pay1 x0 x4 j = Cert.Spec.kM1 * HSub.hSub (α := EReal) (β := EReal) (γ := EReal) (x0 j) (x4 j) := by
  unfold k1_pay1
  simp only [shapeCast_self]
  rfl

/-- The second store's payload at an entry of the block. -/
private theorem pay2_apply (x2 x6 : Vec Ideal S2000x128 .f32) (j : S2000x128.Idx) :
    k1_pay2 x2 x6 j = Cert.Spec.kM1 * HSub.hSub (α := EReal) (β := EReal) (γ := EReal) (x2 j) (x6 j) := by
  unfold k1_pay2
  simp only [shapeCast_self]
  rfl

/-- What the body leaves in the fifth window's buffer, entry by entry, over any four input blocks. -/
private theorem out4_apply (x0 x1 x2 x3 : Vec Ideal S2000x128 .f32) (j : S2000x128.Idx) :
    out1_4 x0 x1 x2 x3 j = Cert.Spec.kM1 * HSub.hSub (α := EReal) (β := EReal) (γ := EReal) (x0 j) (x2 j) := by
  unfold out1_4
  rw [View.canon_unit_zero hz]
  simp only [View.ld_unit_zero (S := S2000x128) hz]
  exact pay1_apply x0 x2 j

/-- What the body leaves in the sixth window's buffer. -/
private theorem out5_apply (x0 x1 x2 x3 : Vec Ideal S2000x128 .f32) (j : S2000x128.Idx) :
    out1_5 x0 x1 x2 x3 j = Cert.Spec.kM1 * HSub.hSub (α := EReal) (β := EReal) (γ := EReal) (x1 j) (x3 j) := by
  unfold out1_5
  rw [View.canon_unit_zero hz]
  simp only [View.ld_unit_zero (S := S2000x128) hz]
  exact pay2_apply x1 x3 j

/-! ## The index maps, decided once over the grid's 25 points -/

/-- Every window of the region sits at block (t, 0) at point t. -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-! ## What a point writes back -/

/-- Point t writes block t of the fifth array's whole-array function. -/
private theorem flushed4_eq (c : Dev nD) (t : Fin cfg1.N) :
    (dat1 (F := Ideal) V c).flushed 4 t
      = ((cfg1.win 4).blk t).view.read (Elt Ideal) (negDiff (V c main_v62) (V c main_v68)) := by
  show (cfg1.win 4).cut (grid1.coords t) ((dat1 (F := Ideal) V c).after 4 t) = _
  rw [after1_4]
  obtain ⟨a0, a1, -, -, c0, c1, -, -, e0, e1, -, -⟩ := idx_facts t
  funext j
  show out1_4 (iblk1 V c 0 t) (iblk1 V c 1 t) (iblk1 V c 2 t) (iblk1 V c 3 t) j
    = negDiff (V c main_v62) (V c main_v68) (((cfg1.win 4).blk t).view.emb j)
  refine (out4_apply (iblk1 V c 0 t) (iblk1 V c 1 t) (iblk1 V c 2 t) (iblk1 V c 3 t) j).trans ?_
  show Cert.Spec.kM1 * HSub.hSub (α := EReal) (β := EReal) (γ := EReal)
        (V c main_v62 (((cfg1.win 0).blk t).view.emb j)) (V c main_v68 (((cfg1.win 2).blk t).view.emb j))
      = Cert.Spec.kM1 * HSub.hSub (α := EReal) (β := EReal) (γ := EReal)
        (V c main_v62 (((cfg1.win 4).blk t).view.emb j)) (V c main_v68 (((cfg1.win 4).blk t).view.emb j))
  have h0 : ((cfg1.win 0).blk t).view.emb j = ((cfg1.win 4).blk t).view.emb j := by
    funext a; apply Fin.ext
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 128 + 1 * (j 1).val = win1_4.index t (1 : Fin 2) * 128 + 1 * (j 1).val; omega
  have h2 : ((cfg1.win 2).blk t).view.emb j = ((cfg1.win 4).blk t).view.emb j := by
    funext a; apply Fin.ext
    match a with
    | ⟨0, _⟩ => show win1_2.index t (0 : Fin 2) * 2000 + 1 * (j 0).val = win1_4.index t (0 : Fin 2) * 2000 + 1 * (j 0).val; omega
    | ⟨1, _⟩ => show win1_2.index t (1 : Fin 2) * 128 + 1 * (j 1).val = win1_4.index t (1 : Fin 2) * 128 + 1 * (j 1).val; omega
  rw [h0, h2]

/-- Point t writes block t of the sixth array's whole-array function. -/
private theorem flushed5_eq (c : Dev nD) (t : Fin cfg1.N) :
    (dat1 (F := Ideal) V c).flushed 5 t
      = ((cfg1.win 5).blk t).view.read (Elt Ideal) (negDiff (V c main_v65) (V c main_v71)) := by
  show (cfg1.win 5).cut (grid1.coords t) ((dat1 (F := Ideal) V c).after 5 t) = _
  rw [after1_5]
  obtain ⟨-, -, b0, b1, -, -, d0, d1, -, -, f0, f1⟩ := idx_facts t
  funext j
  show out1_5 (iblk1 V c 0 t) (iblk1 V c 1 t) (iblk1 V c 2 t) (iblk1 V c 3 t) j
    = negDiff (V c main_v65) (V c main_v71) (((cfg1.win 5).blk t).view.emb j)
  refine (out5_apply (iblk1 V c 0 t) (iblk1 V c 1 t) (iblk1 V c 2 t) (iblk1 V c 3 t) j).trans ?_
  show Cert.Spec.kM1 * HSub.hSub (α := EReal) (β := EReal) (γ := EReal)
        (V c main_v65 (((cfg1.win 1).blk t).view.emb j)) (V c main_v71 (((cfg1.win 3).blk t).view.emb j))
      = Cert.Spec.kM1 * HSub.hSub (α := EReal) (β := EReal) (γ := EReal)
        (V c main_v65 (((cfg1.win 5).blk t).view.emb j)) (V c main_v71 (((cfg1.win 5).blk t).view.emb j))
  have h1 : ((cfg1.win 1).blk t).view.emb j = ((cfg1.win 5).blk t).view.emb j := by
    funext a; apply Fin.ext
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 128 + 1 * (j 1).val = win1_5.index t (1 : Fin 2) * 128 + 1 * (j 1).val; omega
  have h3 : ((cfg1.win 3).blk t).view.emb j = ((cfg1.win 5).blk t).view.emb j := by
    funext a; apply Fin.ext
    match a with
    | ⟨0, _⟩ => show win1_3.index t (0 : Fin 2) * 2000 + 1 * (j 0).val = win1_5.index t (0 : Fin 2) * 2000 + 1 * (j 0).val; omega
    | ⟨1, _⟩ => show win1_3.index t (1 : Fin 2) * 128 + 1 * (j 1).val = win1_5.index t (1 : Fin 2) * 128 + 1 * (j 1).val; omega
  rw [h1, h3]

/-! ## The blocks cover the arrays -/

/-- An entry is in point t's block of the fifth array iff each coordinate is in the block's range. -/
private theorem mem_blk4 (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v72_0).slice (win1_4.rect t)).set ↔ _
  rw [View.set_slice_whole, Rect.mem_set_unit]
  exact Iff.rfl

/-- The same for the sixth array. -/
private theorem mem_blk5 (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v72_1).slice (win1_5.rect t)).set ↔ _
  rw [View.set_slice_whole, Rect.mem_set_unit]
  exact Iff.rfl

/-- The point whose block holds row r: r / 2000. -/
private def pointOf (i : S50000x128.Idx) : Fin cfg1.N :=
  ⟨(i 0).val / 2000, by
    have h0 : (i 0).val < 50000 := (i 0).isLt
    rw [show cfg1.N = 25 from N_1]; omega⟩

private theorem pointOf_val (i : S50000x128.Idx) : (pointOf i).val = (i 0).val / 2000 := rfl

/-- Every entry of the fifth array is in the block of the point its row names. -/
private theorem cover4 (i : S50000x128.Idx) :
    ∃ t : Fin cfg1.N, (cfg1.win 4).flush t = true ∧ i ∈ ((cfg1.win 4).blk t).view.set := by
  refine ⟨pointOf i, flush1_4 (pointOf i), ?_⟩
  rw [mem_blk4]
  obtain ⟨-, -, -, -, -, -, -, -, e0, e1, -, -⟩ := idx_facts (pointOf i)
  have hv := pointOf_val i
  have h0 : (i 0).val < 50000 := (i 0).isLt
  have h1 : (i 1).val < 128 := (i 1).isLt
  intro a
  match a with
  | ⟨0, _⟩ =>
    show win1_4.index (pointOf i) (0 : Fin 2) * 2000 ≤ (i 0).val ∧ (i 0).val < win1_4.index (pointOf i) (0 : Fin 2) * 2000 + 2000
    omega
  | ⟨1, _⟩ =>
    show win1_4.index (pointOf i) (1 : Fin 2) * 128 ≤ (i 1).val ∧ (i 1).val < win1_4.index (pointOf i) (1 : Fin 2) * 128 + 128
    omega

/-- Every entry of the sixth array likewise. -/
private theorem cover5 (i : S50000x128.Idx) :
    ∃ t : Fin cfg1.N, (cfg1.win 5).flush t = true ∧ i ∈ ((cfg1.win 5).blk t).view.set := by
  refine ⟨pointOf i, flush1_5 (pointOf i), ?_⟩
  rw [mem_blk5]
  obtain ⟨-, -, -, -, -, -, -, -, -, -, f0, f1⟩ := idx_facts (pointOf i)
  have hv := pointOf_val i
  have h0 : (i 0).val < 50000 := (i 0).isLt
  have h1 : (i 1).val < 128 := (i 1).isLt
  intro a
  match a with
  | ⟨0, _⟩ =>
    show win1_5.index (pointOf i) (0 : Fin 2) * 2000 ≤ (i 0).val ∧ (i 0).val < win1_5.index (pointOf i) (0 : Fin 2) * 2000 + 2000
    omega
  | ⟨1, _⟩ =>
    show win1_5.index (pointOf i) (1 : Fin 2) * 128 ≤ (i 1).val ∧ (i 1).val < win1_5.index (pointOf i) (1 : Fin 2) * 128 + 128
    omega

/-! ## The arrays after the region -/

theorem out4 (c : Dev nD) (i : S50000x128.Idx) :
    (dat1 (F := Ideal) V c).arrAt 4 cfg1.N i = Cert.Spec.kM1 * HSub.hSub (α := EReal) (β := EReal) (γ := EReal) (V c main_v62 i) (V c main_v68 i) :=
  congrFun ((dat1 (F := Ideal) V c).arrAt_eq_of_cover 4 (negDiff (V c main_v62) (V c main_v68))
    (fun t _ => flushed4_eq V c t) cover4) i

theorem out5 (c : Dev nD) (i : S50000x128.Idx) :
    (dat1 (F := Ideal) V c).arrAt 5 cfg1.N i = Cert.Spec.kM1 * HSub.hSub (α := EReal) (β := EReal) (γ := EReal) (V c main_v65 i) (V c main_v71 i) :=
  congrFun ((dat1 (F := Ideal) V c).arrAt_eq_of_cover 5 (negDiff (V c main_v65) (V c main_v71))
    (fun t _ => flushed5_eq V c t) cover5) i

end Cert.KernelIdeal.Region1

end
-- ==== Proof.Host0.lean ====
/-
  The host operations before the first region, read at an index: the five arrays the region stages, and the two index
  vectors later stretches read.
-/
import proofs.«144629_j47021301957211_1_alg».proof.Proof.Gen.KernelIdeal.Frame
import proofs.«144629_j47021301957211_1_alg».proof.Proof.KArgs
import proofs.«144629_j47021301957211_1_alg».proof.Proof.Flat
import Idealize.ShloMosaic.Lib.Pipeline.Value

noncomputable section

open Idealize.ShloMosaic Idealize.ShloMosaic.TcCoe Idealize.ShloMosaic.ValueIdx Idealize.SL.Sem
open Cert.KernelIdeal Cert.KernelIdeal.Gen

namespace Cert.KernelIdeal.Host0

variable (m : (ℓ : Loc nD τ sig) → Buf (Elt Ideal) ℓ) (ρ : Dev nD → PrngReg)

/-! ## The two layout readings

The stretch ends in five reshapes of an [E] vector to [50000, 128]; two of the vectors are columns of the [E, 2]
direction array, cut out as an [E, 1] slice and flattened. Both readings are row-major position arithmetic. -/

/-- Row r, lane l of the [50000, 128] layout has the row-major position of edge r * 128 + l. -/
private theorem rowMajor_fl (i : S50000x128.Idx) :
    (S6400000.rowMajor (Cert.Spec.fl i)).val = (S50000x128.rowMajor i).val := by
  rw [Shape.rowMajor_val_one, Shape.rowMajor_val_two]
  rfl

/-- An [E] vector laid out as [50000, 128], read at row r, lane l, is the vector at edge r * 128 + l. -/
private theorem reshape2D_apply {α : Type} (x : S6400000.Idx → α) (i : S50000x128.Idx) :
    shapeCast S50000x128 x shapeCasts_S6400000_S50000x128 i = x (Cert.Spec.fl i) :=
  shapeCast_apply x shapeCasts_S6400000_S50000x128 i (Cert.Spec.fl i) (rowMajor_fl i)

/-- Column d of an [E, 2] array (the unit-stride slice at offsets (0, d), of shape [E, 1]), flattened to [E] and read
    at edge e, is the array's entry (e, d): position e of [E] is position (e, 0) of [E, 1], which the slice shifts to
    (e, d). -/
private theorem column_apply {α : Type} (x : S6400000x2.Idx → α) (d : Fin 2) (off : Fin 2 → Nat)
    (h : S6400000x2.Slices off S6400000x1) (h0 : off 0 = 0) (h1 : off 1 = d.val) (e : S6400000.Idx) :
    shapeCast S6400000 (extractStridedSlice S6400000x1 off x h) shapeCasts_S6400000x1_S6400000 e
      = x (Cert.Spec.pair e d) := by
  refine (shapeCast_apply _ shapeCasts_S6400000x1_S6400000 e
    (ix2 (⟨(e 0).val, (e 0).isLt⟩ : Fin 6400000) (0 : Fin 1)) ?_).trans ?_
  · rw [Shape.rowMajor_val_one, Shape.rowMajor_val_two]
    show (e 0).val * 1 + 0 = (e 0).val
    omega
  · refine extractStridedSlice_apply off x h _ (Cert.Spec.pair e d) fun a => ?_
    match a with
    | ⟨0, _⟩ => show (e 0).val = off 0 + (e 0).val; omega
    | ⟨1, _⟩ => show d.val = off 1 + 0; omega

/-! ## The staged arrays

Each array is first written as the stretch's operations composed on the launch contents. For the two gathered
factors that composition is, operation for operation, the specification's: the same gather of the same node table
(the quotient A / D, resp. the product A * R, taken entry by entry) at the same wrapped j column. Then the last
reshape is read at (r, l). -/

theorem v24 (c : Dev nD) (i : S50000x128.Idx) :
    W1 (F := Ideal) m ρ c (Proc.devRef .tc main_v24) i = Cert.Spec.facnK (argsK m c) (Cert.Spec.fl i) := by
  have e : (W1 (F := Ideal) m ρ c (Proc.devRef .tc main_v24) : S50000x128.Idx → EReal)
      = shapeCast S50000x128 (Cert.Spec.facnK (argsK m c)) shapeCasts_S6400000_S50000x128 := by
    show StableHlo.after hostOps0 _ (Proc.devRef .tc main_v24) = _
    after_results_simp
    rfl
  rw [e]
  exact reshape2D_apply _ i
theorem v25 (c : Dev nD) (i : S50000x128.Idx) :
    W1 (F := Ideal) m ρ c (Proc.devRef .tc main_v25) i = Cert.Spec.faccK (argsK m c) (Cert.Spec.fl i) := by
  have e : (W1 (F := Ideal) m ρ c (Proc.devRef .tc main_v25) : S50000x128.Idx → EReal)
      = shapeCast S50000x128 (Cert.Spec.faccK (argsK m c)) shapeCasts_S6400000_S50000x128 := by
    show StableHlo.after hostOps0 _ (Proc.devRef .tc main_v25) = _
    after_results_simp
    rfl
  rw [e]
  exact reshape2D_apply _ i
theorem v26 (c : Dev nD) (i : S50000x128.Idx) :
    W1 (F := Ideal) m ρ c (Proc.devRef .tc main_v26) i = (argsK m c).q (Cert.Spec.fl i) := by
  have e : (W1 (F := Ideal) m ρ c (Proc.devRef .tc main_v26) : S50000x128.Idx → EReal)
      = shapeCast S50000x128 ((argsK m c).q) shapeCasts_S6400000_S50000x128 := by
    show StableHlo.after hostOps0 _ (Proc.devRef .tc main_v26) = _
    after_results_simp
    rfl
  rw [e]
  exact reshape2D_apply _ i
theorem v27 (c : Dev nD) (i : S50000x128.Idx) :
    W1 (F := Ideal) m ρ c (Proc.devRef .tc main_v27) i = (argsK m c).dist (Cert.Spec.pair (Cert.Spec.fl i) 0) := by
  have e : (W1 (F := Ideal) m ρ c (Proc.devRef .tc main_v27) : S50000x128.Idx → EReal)
      = shapeCast S50000x128 (shapeCast S6400000 (extractStridedSlice S6400000x1 ![0, 0] ((argsK m c).dist)
          slices_S6400000x2_S6400000x1_0_0) shapeCasts_S6400000x1_S6400000) shapeCasts_S6400000_S50000x128 := by
    show StableHlo.after hostOps0 _ (Proc.devRef .tc main_v27) = _
    after_results_simp
    rfl
  rw [e, reshape2D_apply]
  exact column_apply _ 0 ![0, 0] _ rfl rfl _
theorem v28 (c : Dev nD) (i : S50000x128.Idx) :
    W1 (F := Ideal) m ρ c (Proc.devRef .tc main_v28) i = (argsK m c).dist (Cert.Spec.pair (Cert.Spec.fl i) 1) := by
  have e : (W1 (F := Ideal) m ρ c (Proc.devRef .tc main_v28) : S50000x128.Idx → EReal)
      = shapeCast S50000x128 (shapeCast S6400000 (extractStridedSlice S6400000x1 ![0, 1] ((argsK m c).dist)
          slices_S6400000x2_S6400000x1_0_1) shapeCasts_S6400000x1_S6400000) shapeCasts_S6400000_S50000x128 := by
    show StableHlo.after hostOps0 _ (Proc.devRef .tc main_v28) = _
    after_results_simp
    rfl
  rw [e, reshape2D_apply]
  exact column_apply _ 1 ![0, 1] _ rfl rfl _

/-! ## The two index vectors: rows 0 and 1 of the [2, E] neighbour array, each cut out as a [1, E] slice and flattened -/

theorem v1 (c : Dev nD) :
    W1 (F := Ideal) m ρ c (Proc.devRef .tc main_v1) = Cert.Spec.iVec (m ((c : Thread nD τ).loc main_arg0)) := by
  show StableHlo.after hostOps0 _ (Proc.devRef .tc main_v1) = _
  after_results_simp
  rfl
theorem v3 (c : Dev nD) :
    W1 (F := Ideal) m ρ c (Proc.devRef .tc main_v3) = Cert.Spec.jVec (m ((c : Thread nD τ).loc main_arg0)) := by
  show StableHlo.after hostOps0 _ (Proc.devRef .tc main_v3) = _
  after_results_simp
  rfl

end Cert.KernelIdeal.Host0

end
-- ==== Proof.Host1.lean ====
/-
  The host operations between the two regions, read at an index, from ANY buffer contents W whose four region outputs are
  the two components of two [E, 2] update arrays u1, u2 laid out [50000, 128], and whose index vectors are i and j:
  the two segment sums, and the gathered rows of the first at i and at j, component by component, laid out [50000, 128].
-/
import proofs.«144629_j47021301957211_1_alg».proof.Proof.Gen.KernelIdeal.Launch
import proofs.«144629_j47021301957211_1_alg».proof.Proof.Spec
import proofs.«144629_j47021301957211_1_alg».proof.Proof.Flat
import Idealize.ShloMosaic.Lib.Pipeline.Value
import Idealize.ShloMosaic.PureOps.Ideal.Laws

noncomputable section

open Idealize.ShloMosaic Idealize.ShloMosaic.TcCoe Idealize.ShloMosaic.ValueIdx Idealize.SL.Sem
open Cert.KernelIdeal Cert.KernelIdeal.Gen

namespace Cert.KernelIdeal.Host1

open Cert.Spec in
/-- Column d of an [E, 2] array, flattened to [E] and laid out [50000, 128], holds at row r, lane l the array's entry
    (r * 128 + l, d). -/
private theorem read_col (g : S6400000x2.Idx → EReal) (d : Fin 2) (off : Fin 2 → Nat) (hd0 : off 0 = 0) (hd1 : off 1 = d.val)
    (hs : S6400000x2.Slices off S6400000x1) (h1 : S6400000x1.ShapeCasts S6400000) (h2 : S6400000.ShapeCasts S50000x128)
    (i : S50000x128.Idx) :
    shapeCast S50000x128 (shapeCast S6400000 (extractStridedSlice S6400000x1 off g hs) h1) h2 i
      = g (pair (fl i) d) := by
  refine (shapeCast_apply _ h2 i (fl i) ?_).trans ?_
  · rw [Shape.rowMajor_val_one, Shape.rowMajor_val_two]; rfl
  refine (shapeCast_apply _ h1 (fl i) (ix2 (⟨(fl i 0).val, (fl i 0).isLt⟩ : Fin 6400000) (0 : Fin 1)) ?_).trans ?_
  · rw [Shape.rowMajor_val_one, Shape.rowMajor_val_two]
    show (fl i 0).val * 1 + 0 = (fl i 0).val
    omega
  refine extractStridedSlice_apply off g hs _ (pair (fl i) d) (fun a => ?_)
  match a with
  | ⟨0, _⟩ => show (fl i 0).val = off 0 + (fl i 0).val; omega
  | ⟨1, _⟩ => show d.val = off 1 + 0; omega

open Cert.Spec in
/-- Column 0. -/
private theorem read_col0 (g : S6400000x2.Idx → EReal) (hs : S6400000x2.Slices ![0, 0] S6400000x1)
    (h1 : S6400000x1.ShapeCasts S6400000) (h2 : S6400000.ShapeCasts S50000x128) (i : S50000x128.Idx) :
    shapeCast S50000x128 (shapeCast S6400000 (extractStridedSlice S6400000x1 ![0, 0] g hs) h1) h2 i
      = g (pair (fl i) 0) := read_col g 0 ![0, 0] rfl rfl hs h1 h2 i

open Cert.Spec in
/-- Column 1. -/
private theorem read_col1 (g : S6400000x2.Idx → EReal) (hs : S6400000x2.Slices ![0, 1] S6400000x1)
    (h1 : S6400000x1.ShapeCasts S6400000) (h2 : S6400000.ShapeCasts S50000x128) (i : S50000x128.Idx) :
    shapeCast S50000x128 (shapeCast S6400000 (extractStridedSlice S6400000x1 ![0, 1] g hs) h1) h2 i
      = g (pair (fl i) 1) := read_col g 1 ![0, 1] rfl rfl hs h1 h2 i

open Cert.Spec in
/-- The two components of an [E, 2] array u, each laid out [50000, 128], flattened, made a column and set side by
    side again, are u. -/
private theorem cat_cols (x0 x1 : S50000x128.Idx → EReal) (u : S6400000x2.Idx → EReal)
    (h0 : ∀ i, x0 i = u (pair (fl i) 0)) (h1 : ∀ i, x1 i = u (pair (fl i) 1))
    (hc : S50000x128.ShapeCasts S6400000) (hb : S6400000.BroadcastsInDim S6400000x1 ![0])
    (hcat : Shape.Concatenates [S6400000x1, S6400000x1] S6400000x2 1) :
    concatenate S6400000x2 1 [⟨S6400000x1, broadcastInDim S6400000x1 ![0] hb (shapeCast S6400000 x0 hc)⟩,
       ⟨S6400000x1, broadcastInDim S6400000x1 ![0] hb (shapeCast S6400000 x1 hc)⟩] hcat = u := by
  funext y
  have hy : pair (e1 y) (d1 y) = y := pair_e1_d1 y
  -- a column made from a [50000, 128] layout, read at edge e1 y
  have hcol : ∀ (x : S50000x128.Idx → EReal) (c : Fin 1),
      broadcastInDim S6400000x1 ![0] hb (shapeCast S6400000 x hc) (ix2 (⟨(y 0).val, idx2_lt0 y⟩ : Fin 6400000) c)
        = x (unfl (e1 y)) := by
    intro x c
    refine (broadcastInDim_apply ![0] hb _ _ (e1 y) (fun a => ?_)).trans ?_
    · match a with
      | ⟨0, _⟩ =>
        have hne : ¬ ((6400000 : Nat) = 1) := by decide
        exact (if_neg hne).symm
    · refine shapeCast_apply x hc _ (unfl (e1 y)) ?_
      rw [Shape.rowMajor_val_two, Shape.rowMajor_val_one]
      show ((e1 y 0).val / 128) * 128 + (e1 y 0).val % 128 = (e1 y 0).val
      omega
  have hd : (y 1).val = 0 ∨ (y 1).val = 1 := by have := idx2_lt1 y; omega
  rcases hd with hd | hd
  · have hd1 : d1 y = 0 := Fin.ext hd
    refine (concatenate_pair_apply_left 1 _ _ hcat y rfl (ix2 (⟨(y 0).val, idx2_lt0 y⟩ : Fin 6400000) (0 : Fin 1)) (fun b => ?_)).trans ?_
    · match b with
      | ⟨0, _⟩ => rfl
      | ⟨1, _⟩ => exact hd.symm
    · rw [hcol, h0, fl_unfl, ← hd1, hy]
  · have hd1 : d1 y = 1 := Fin.ext hd
    refine (concatenate_pair_apply_right 1 _ _ hcat y rfl rfl (ix2 (⟨(y 0).val, idx2_lt0 y⟩ : Fin 6400000) (0 : Fin 1)) (fun b hb' => ?_) ?_).trans ?_
    · match b with
      | ⟨0, _⟩ => rfl
      | ⟨1, _⟩ => exact absurd rfl hb'
    · show 0 + 1 = (y 1).val
      omega
    · rw [hcol, h1, fl_unfl, ← hd1, hy]

/-- The program's scatter-add into a broadcast zero at the raw i column is the specification's segment sum. -/
private theorem seg_eq (a : Cert.Spec.Args) (nb : IVec S2x6400000 32) (haR : a.iRaw = Cert.Spec.col (Cert.Spec.iVec nb))
    (u : S6400000x2.Idx → EReal) (hz : S_.BroadcastsInDim S100000x2 ![]) (hb : S6400000.BroadcastsInDim S6400000x1 ![0]) :
    (Host.scatterAdd (F := Ideal) (φ := .f32) scatter_S100000x2_S6400000x1_S6400000x2_1_0_0_1
        (broadcastInDim S100000x2 ![] hz (constant (F := Ideal) S_ .f32 0x00000000#32))
        (broadcastInDim S6400000x1 ![0] hb (Cert.Spec.iVec nb)) u : S100000x2.Idx → EReal) = Cert.Spec.seg a u := by
  unfold Cert.Spec.seg
  rw [haR]
  have hzero : (broadcastInDim S100000x2 ![] hz (constant (F := Ideal) S_ .f32 0x00000000#32) : S100000x2.Idx → EReal)
      = fun _ => (0 : EReal) := funext fun _ => Ideal.ofBits_zero_f32
  show Ideal.hostScatterAdd _ (broadcastInDim S100000x2 ![] hz (constant (F := Ideal) S_ .f32 0x00000000#32)) _ _ = _
  rw [hzero]
  rfl

/-- The program's row gather at a wrapped index vector is the specification's, at the column the arguments hold. -/
private theorem gather_eq (x : S100000x2.Idx → EReal) (v : IVec S6400000 32) (cN : IVec Cert.Spec.SE1 32)
    (hN : cN = Cert.Spec.col (Cert.Spec.wrapVec v))
    (hz : S_.BroadcastsInDim S6400000 ![]) (hb : S6400000.BroadcastsInDim S6400000x1 ![0]) :
    Host.gather gather_S100000x2_S6400000x1_S6400000x2_1_0_n_n_0_1_12 x
        (broadcastInDim S6400000x1 ![0] hb
          (select (cmpi .slt v (broadcastInDim S6400000 ![] hz (constantI S_ 32 0#32)))
            (addi v (broadcastInDim S6400000 ![] hz (constantI S_ 32 100000#32))) v : IVec S6400000 32))
      = Host.gather Cert.Spec.gd2 x cN := by
  rw [hN]
  rfl

/-- The same with the array and the index vector given up to an equation. -/
private theorem seg_eq' (a : Cert.Spec.Args) (nb : IVec S2x6400000 32) (haR : a.iRaw = Cert.Spec.col (Cert.Spec.iVec nb))
    (u' u : S6400000x2.Idx → EReal) (hu : u' = u) (vi : IVec S6400000 32) (hvi : vi = Cert.Spec.iVec nb)
    (hz : S_.BroadcastsInDim S100000x2 ![]) (hb : S6400000.BroadcastsInDim S6400000x1 ![0]) :
    (Host.scatterAdd (F := Ideal) (φ := .f32) scatter_S100000x2_S6400000x1_S6400000x2_1_0_0_1
        (broadcastInDim S100000x2 ![] hz (constant (F := Ideal) S_ .f32 0x00000000#32))
        (broadcastInDim S6400000x1 ![0] hb vi) u' : S100000x2.Idx → EReal) = Cert.Spec.seg a u := by
  subst hu; subst hvi; exact seg_eq a nb haR _ hz hb

/-- The rows of the segment sum gathered at a wrapped index vector, as the program writes them, are the specification's. -/
private theorem rows_eq (a : Cert.Spec.Args) (nb : IVec S2x6400000 32) (haR : a.iRaw = Cert.Spec.col (Cert.Spec.iVec nb))
    (u' u : S6400000x2.Idx → EReal) (hu : u' = u) (vi : IVec S6400000 32) (hvi : vi = Cert.Spec.iVec nb)
    (v w : IVec S6400000 32) (hv : v = w) (cN : IVec Cert.Spec.SE1 32) (hN : cN = Cert.Spec.col (Cert.Spec.wrapVec w))
    (hz : S_.BroadcastsInDim S100000x2 ![]) (hb hb' : S6400000.BroadcastsInDim S6400000x1 ![0])
    (hz' hz'' : S_.BroadcastsInDim S6400000 ![]) (y : S6400000x2.Idx) :
    Host.gather gather_S100000x2_S6400000x1_S6400000x2_1_0_n_n_0_1_12
        (Host.scatterAdd (F := Ideal) (φ := .f32) scatter_S100000x2_S6400000x1_S6400000x2_1_0_0_1
          (broadcastInDim S100000x2 ![] hz (constant (F := Ideal) S_ .f32 0x00000000#32))
          (broadcastInDim S6400000x1 ![0] hb vi) u' : S100000x2.Idx → EReal)
        (broadcastInDim S6400000x1 ![0] hb'
          (select (cmpi .slt v (broadcastInDim S6400000 ![] hz' (constantI S_ 32 0#32)))
            (addi v (broadcastInDim S6400000 ![] hz'' (constantI S_ 32 100000#32))) v : IVec S6400000 32)) y
      = Host.gather Cert.Spec.gd2 (Cert.Spec.seg a u) cN y := by
  subst hv
  rw [seg_eq' a nb haR u' u hu vi hvi hz hb]
  exact congrFun (gather_eq _ v cN hN hz' hb') y

variable (W : Valuation τ sig (Elt Ideal)) (nb : IVec S2x6400000 32) (u1 u2 : Cert.Spec.SE2.Idx → EReal) (a : Cert.Spec.Args)
  (h0 : ∀ i : S50000x128.Idx, W (Proc.devRef .tc main_v29_0) i = u1 (Cert.Spec.pair (Cert.Spec.fl i) 0))
  (h1 : ∀ i : S50000x128.Idx, W (Proc.devRef .tc main_v29_1) i = u1 (Cert.Spec.pair (Cert.Spec.fl i) 1))
  (h2 : ∀ i : S50000x128.Idx, W (Proc.devRef .tc main_v29_2) i = u2 (Cert.Spec.pair (Cert.Spec.fl i) 0))
  (h3 : ∀ i : S50000x128.Idx, W (Proc.devRef .tc main_v29_3) i = u2 (Cert.Spec.pair (Cert.Spec.fl i) 1))
  (hi : W (Proc.devRef .tc main_v1) = Cert.Spec.iVec nb) (hj : W (Proc.devRef .tc main_v3) = Cert.Spec.jVec nb)
  (haR : a.iRaw = Cert.Spec.col (Cert.Spec.iVec nb)) (haI : a.iN = Cert.Spec.col (Cert.Spec.wrapVec (Cert.Spec.iVec nb)))
  (haJ : a.jN = Cert.Spec.col (Cert.Spec.wrapVec (Cert.Spec.jVec nb)))

include h2 h3 hi haR in
theorem v45 : StableHlo.after (hostOps1 (F := Ideal)) W (Proc.devRef .tc main_v45) = Cert.Spec.seg a u2 := by
  after_results_simp
  repeat (first
    | rw [StableHlo.unary_result] | rw [StableHlo.reshape_result] | rw [StableHlo.binary_result]
    | (rw [StableHlo.unary_result_ne]; rotate_left; decide)
    | (rw [StableHlo.binary_result_ne]; rotate_left; decide)
    | (rw [StableHlo.reshape_result_ne]; rotate_left; decide))
  exact seg_eq' a nb haR _ u2
    (cat_cols (W (Proc.devRef .tc main_v29_2)) (W (Proc.devRef .tc main_v29_3)) u2 h2 h3 _ _ _)
    (W (Proc.devRef .tc main_v1)) hi _ _

include h0 h1 hi haR haI in
theorem v62 (i : S50000x128.Idx) : StableHlo.after (hostOps1 (F := Ideal)) W (Proc.devRef .tc main_v62) i
    = Cert.Spec.rowsI a (Cert.Spec.seg a u1) (Cert.Spec.pair (Cert.Spec.fl i) 0) := by
  after_results_simp
  repeat (first
    | rw [StableHlo.unary_result] | rw [StableHlo.reshape_result] | rw [StableHlo.binary_result]
    | (rw [StableHlo.unary_result_ne]; rotate_left; decide)
    | (rw [StableHlo.binary_result_ne]; rotate_left; decide)
    | (rw [StableHlo.reshape_result_ne]; rotate_left; decide))
  refine (read_col0 _ _ _ _ i).trans ?_
  exact rows_eq a nb haR _ u1
    (cat_cols (W (Proc.devRef .tc main_v29_0)) (W (Proc.devRef .tc main_v29_1)) u1 h0 h1 _ _ _)
    (W (Proc.devRef .tc main_v1)) hi (W (Proc.devRef .tc main_v1)) (Cert.Spec.iVec nb) hi a.iN haI _ _ _ _ _ _
include h0 h1 hi haR haI in
theorem v65 (i : S50000x128.Idx) : StableHlo.after (hostOps1 (F := Ideal)) W (Proc.devRef .tc main_v65) i
    = Cert.Spec.rowsI a (Cert.Spec.seg a u1) (Cert.Spec.pair (Cert.Spec.fl i) 1) := by
  after_results_simp
  repeat (first
    | rw [StableHlo.unary_result] | rw [StableHlo.reshape_result] | rw [StableHlo.binary_result]
    | (rw [StableHlo.unary_result_ne]; rotate_left; decide)
    | (rw [StableHlo.binary_result_ne]; rotate_left; decide)
    | (rw [StableHlo.reshape_result_ne]; rotate_left; decide))
  refine (read_col1 _ _ _ _ i).trans ?_
  exact rows_eq a nb haR _ u1
    (cat_cols (W (Proc.devRef .tc main_v29_0)) (W (Proc.devRef .tc main_v29_1)) u1 h0 h1 _ _ _)
    (W (Proc.devRef .tc main_v1)) hi (W (Proc.devRef .tc main_v1)) (Cert.Spec.iVec nb) hi a.iN haI _ _ _ _ _ _
include h0 h1 hi hj haR haJ in
theorem v68 (i : S50000x128.Idx) : StableHlo.after (hostOps1 (F := Ideal)) W (Proc.devRef .tc main_v68) i
    = Cert.Spec.rowsJ a (Cert.Spec.seg a u1) (Cert.Spec.pair (Cert.Spec.fl i) 0) := by
  after_results_simp
  repeat (first
    | rw [StableHlo.unary_result] | rw [StableHlo.reshape_result] | rw [StableHlo.binary_result]
    | (rw [StableHlo.unary_result_ne]; rotate_left; decide)
    | (rw [StableHlo.binary_result_ne]; rotate_left; decide)
    | (rw [StableHlo.reshape_result_ne]; rotate_left; decide))
  refine (read_col0 _ _ _ _ i).trans ?_
  exact rows_eq a nb haR _ u1
    (cat_cols (W (Proc.devRef .tc main_v29_0)) (W (Proc.devRef .tc main_v29_1)) u1 h0 h1 _ _ _)
    (W (Proc.devRef .tc main_v1)) hi (W (Proc.devRef .tc main_v3)) (Cert.Spec.jVec nb) hj a.jN haJ _ _ _ _ _ _
include h0 h1 hi hj haR haJ in
theorem v71 (i : S50000x128.Idx) : StableHlo.after (hostOps1 (F := Ideal)) W (Proc.devRef .tc main_v71) i
    = Cert.Spec.rowsJ a (Cert.Spec.seg a u1) (Cert.Spec.pair (Cert.Spec.fl i) 1) := by
  after_results_simp
  repeat (first
    | rw [StableHlo.unary_result] | rw [StableHlo.reshape_result] | rw [StableHlo.binary_result]
    | (rw [StableHlo.unary_result_ne]; rotate_left; decide)
    | (rw [StableHlo.binary_result_ne]; rotate_left; decide)
    | (rw [StableHlo.reshape_result_ne]; rotate_left; decide))
  refine (read_col1 _ _ _ _ i).trans ?_
  exact rows_eq a nb haR _ u1
    (cat_cols (W (Proc.devRef .tc main_v29_0)) (W (Proc.devRef .tc main_v29_1)) u1 h0 h1 _ _ _)
    (W (Proc.devRef .tc main_v1)) hi (W (Proc.devRef .tc main_v3)) (Cert.Spec.jVec nb) hj a.jN haJ _ _ _ _ _ _

/-- The stretch writes neither index vector. -/
theorem v1 : StableHlo.after (hostOps1 (F := Ideal)) W (Proc.devRef .tc main_v1) = W (Proc.devRef .tc main_v1) :=
  StableHlo.after_of_forall_not_mem (b := Proc.devRef .tc main_v1) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

end Cert.KernelIdeal.Host1

end
-- ==== Proof.Host2.lean ====
/-
  The host operations after the second region, from ANY buffer contents W whose two region outputs are the two components
  of an [E, 2] update array u laid out [50000, 128]: the result is u's segment sum plus the array kept from the stretch before.
-/
import proofs.«144629_j47021301957211_1_alg».proof.Proof.Gen.KernelIdeal.Launch
import proofs.«144629_j47021301957211_1_alg».proof.Proof.Spec
import proofs.«144629_j47021301957211_1_alg».proof.Proof.Flat
import Idealize.ShloMosaic.Lib.Pipeline.Value
import Idealize.ShloMosaic.PureOps.Ideal.Laws

noncomputable section

open Idealize.ShloMosaic Idealize.ShloMosaic.TcCoe Idealize.ShloMosaic.ValueIdx Idealize.SL.Sem
open Cert.KernelIdeal Cert.KernelIdeal.Gen

namespace Cert.KernelIdeal.Host2

/-- Zero, broadcast to the node rows, is the zero function. -/
private theorem zeros_eq :
    (broadcastInDim S100000x2 ![] bcast_S_S100000x2 (constant (F := Ideal) S_ .f32 0x00000000#32) : S100000x2.Idx → EReal)
      = fun _ => (0 : EReal) := by
  funext z
  show Ideal.ofBits .f32 0x00000000#32 = 0
  exact Ideal.ofBits_zero_f32

/-- A vector of E entries made a column [E, 1], read at row e: entry e. -/
private theorem colf_apply (x : S6400000.Idx → EReal) (e : Cert.Spec.SE.Idx) (c : Fin 1) :
    broadcastInDim S6400000x1 ![0] bcast_S6400000_S6400000x1_0 x (ix2 (⟨(e 0).val, (e 0).isLt⟩ : Fin 6400000) c) = x e := by
  refine broadcastInDim_apply _ _ x _ e ?_
  intro b
  match b with
  | ⟨0, _⟩ =>
    show (e 0).val = if (6400000 : Nat) = 1 then 0 else (e 0).val
    rw [if_neg (by decide)]

/-- The [50000, 128] layout flattened to E entries, read at edge e: row e / 128, lane e % 128. -/
private theorem flat_apply (x : S50000x128.Idx → EReal) (e : Cert.Spec.SE.Idx) :
    shapeCast S6400000 x shapeCasts_S50000x128_S6400000 e = x (Cert.Spec.unfl e) := by
  refine shapeCast_apply x _ e (Cert.Spec.unfl e) ?_
  rw [Shape.rowMajor_val_two, Shape.rowMajor_val_one]
  show (e 0).val / 128 * 128 + (e 0).val % 128 = (e 0).val
  omega

/-- The two region outputs, flattened, made columns and laid side by side, are the [E, 2] array they hold the
    components of. -/
private theorem cat_eq (x0 x1 : S50000x128.Idx → EReal) (u : Cert.Spec.SE2.Idx → EReal)
    (h0 : ∀ i : S50000x128.Idx, x0 i = u (Cert.Spec.pair (Cert.Spec.fl i) 0))
    (h1 : ∀ i : S50000x128.Idx, x1 i = u (Cert.Spec.pair (Cert.Spec.fl i) 1)) :
    concatenate S6400000x2 1
      [⟨S6400000x1, broadcastInDim S6400000x1 ![0] bcast_S6400000_S6400000x1_0
          (shapeCast S6400000 x0 shapeCasts_S50000x128_S6400000)⟩,
       ⟨S6400000x1, broadcastInDim S6400000x1 ![0] bcast_S6400000_S6400000x1_0
          (shapeCast S6400000 x1 shapeCasts_S50000x128_S6400000)⟩]
      concatenates_S6400000x1_S6400000x1_S6400000x2_d1 = u := by
  funext y
  rw [← Cert.Spec.pair_e1_d1 y]
  generalize Cert.Spec.e1 y = e
  generalize Cert.Spec.d1 y = d
  match d with
  | ⟨0, _⟩ =>
    refine (concatenate_pair_apply_left (t := S6400000x2) (s₁ := S6400000x1) (s₂ := S6400000x1) (1 : Fin 2) _ _ concatenates_S6400000x1_S6400000x1_S6400000x2_d1
      (Cert.Spec.pair e 0) rfl (ix2 (⟨(e 0).val, (e 0).isLt⟩ : Fin 6400000) (0 : Fin 1)) ?_).trans ?_
    · intro b
      match b with
      | ⟨0, _⟩ => rfl
      | ⟨1, _⟩ => rfl
    · rw [colf_apply, flat_apply, h0, Cert.Spec.fl_unfl]; rfl
  | ⟨1, _⟩ =>
    refine (concatenate_pair_apply_right (t := S6400000x2) (s₁ := S6400000x1) (s₂ := S6400000x1) (1 : Fin 2) _ _ concatenates_S6400000x1_S6400000x1_S6400000x2_d1
      (Cert.Spec.pair e 1) rfl rfl (ix2 (⟨(e 0).val, (e 0).isLt⟩ : Fin 6400000) (0 : Fin 1)) ?_ ?_).trans ?_
    · intro b hb
      match b with
      | ⟨0, _⟩ => rfl
      | ⟨1, _⟩ => exact absurd rfl hb
    · rfl
    · rw [colf_apply, flat_apply, h1, Cert.Spec.fl_unfl]; rfl

/-- The program's scatter-add into the broadcast zero at a column is the specification's segment sum when the
    arguments' raw column is that column. -/
private theorem seg_eq (a : Cert.Spec.Args) (iv : IVec S6400000 32) (haR : a.iRaw = Cert.Spec.col iv)
    (u : S6400000x2.Idx → EReal) :
    (Host.scatterAdd (F := Ideal) (φ := .f32) scatter_S100000x2_S6400000x1_S6400000x2_1_0_0_1
        (broadcastInDim S100000x2 ![] bcast_S_S100000x2 (constant (F := Ideal) S_ .f32 0x00000000#32))
        (broadcastInDim S6400000x1 ![0] bcast_S6400000_S6400000x1_0 iv) u : S100000x2.Idx → EReal)
      = Cert.Spec.seg a u := by
  unfold Cert.Spec.seg
  rw [haR, ← zeros_eq]
  rfl

/-- The whole stretch as a function of the buffers it reads. -/
private theorem tail_eq (x0 x1 : S50000x128.Idx → EReal) (iv : IVec S6400000 32) (r : S100000x2.Idx → EReal)
    (u : S6400000x2.Idx → EReal) (a : Cert.Spec.Args)
    (h0 : ∀ i : S50000x128.Idx, x0 i = u (Cert.Spec.pair (Cert.Spec.fl i) 0))
    (h1 : ∀ i : S50000x128.Idx, x1 i = u (Cert.Spec.pair (Cert.Spec.fl i) 1))
    (haR : a.iRaw = Cert.Spec.col iv) :
    (addf (F := Ideal)
      (Host.scatterAdd (F := Ideal) (φ := .f32) scatter_S100000x2_S6400000x1_S6400000x2_1_0_0_1
        (broadcastInDim S100000x2 ![] bcast_S_S100000x2 (constant (F := Ideal) S_ .f32 0x00000000#32))
        (broadcastInDim S6400000x1 ![0] bcast_S6400000_S6400000x1_0 iv)
        (concatenate S6400000x2 1
          [⟨S6400000x1, broadcastInDim S6400000x1 ![0] bcast_S6400000_S6400000x1_0
              (shapeCast S6400000 x0 shapeCasts_S50000x128_S6400000)⟩,
           ⟨S6400000x1, broadcastInDim S6400000x1 ![0] bcast_S6400000_S6400000x1_0
              (shapeCast S6400000 x1 shapeCasts_S50000x128_S6400000)⟩]
          concatenates_S6400000x1_S6400000x1_S6400000x2_d1))
      r : S100000x2.Idx → EReal) = fun z => Cert.Spec.seg a u z + r z := by
  rw [cat_eq x0 x1 u h0 h1, seg_eq a iv haR u]
  funext z
  exact addf_apply (Cert.Spec.seg a u) r z

variable (W : Valuation τ sig (Elt Ideal)) (nb : IVec S2x6400000 32) (u : Cert.Spec.SE2.Idx → EReal) (a : Cert.Spec.Args)
  (h0 : ∀ i : S50000x128.Idx, W (Proc.devRef .tc main_v72_0) i = u (Cert.Spec.pair (Cert.Spec.fl i) 0))
  (h1 : ∀ i : S50000x128.Idx, W (Proc.devRef .tc main_v72_1) i = u (Cert.Spec.pair (Cert.Spec.fl i) 1))
  (hi : W (Proc.devRef .tc main_v1) = Cert.Spec.iVec nb)
  (haR : a.iRaw = Cert.Spec.col (Cert.Spec.iVec nb))

include h0 h1 hi haR in
theorem v81 : StableHlo.after (hostOps2 (F := Ideal)) W (Proc.devRef .tc main_v81)
    = fun z => Cert.Spec.seg a u z + W (Proc.devRef .tc main_v45) z := by
  after_results
  rw [hi]
  exact tail_eq (W (Proc.devRef .tc main_v72_0)) (W (Proc.devRef .tc main_v72_1)) (Cert.Spec.iVec nb)
    (W (Proc.devRef .tc main_v45)) u a h0 h1 haR

end Cert.KernelIdeal.Host2

end
-- ==== Proof.KernelValue.lean ====
/-
  The kernel program's result as the specification's kernel-side function K of the launch arguments: the buffer contents
  are followed boundary by boundary. The first host stretch lays the per-edge factors out [50000, 128]; the first region
  turns them, entry by entry, into the two components of the updates c1K and c2K; the second stretch sums both by segment
  and gathers the rows of the first sum at i and at j; the second region forms -1 times their difference, the two components
  of dK; the last stretch sums that by segment and adds the kept sum of c2K.
-/
import proofs.«144629_j47021301957211_1_alg».proof.Proof.KArgs
import proofs.«144629_j47021301957211_1_alg».proof.Proof.Flat
import proofs.«144629_j47021301957211_1_alg».proof.Proof.Region0
import proofs.«144629_j47021301957211_1_alg».proof.Proof.Region1
import proofs.«144629_j47021301957211_1_alg».proof.Proof.Host0
import proofs.«144629_j47021301957211_1_alg».proof.Proof.Host1
import proofs.«144629_j47021301957211_1_alg».proof.Proof.Host2

noncomputable section

open Idealize.ShloMosaic Idealize.ShloMosaic.TcCoe Idealize.ShloMosaic.ValueIdx Idealize.SL.Sem
open Cert.KernelIdeal Cert.KernelIdeal.Gen

namespace Cert.KernelIdeal.KernelValue

variable (m : (ℓ : Loc nD τ sig) → Buf (Elt Ideal) ℓ) (ρ : Dev nD → PrngReg)

/-! ## After the first region: its four outputs are the components of c1K and c2K -/

theorem w2_0 (c : Dev nD) (i : S50000x128.Idx) :
    W2 (F := Ideal) m ρ c (Proc.devRef .tc main_v29_0) i = Cert.Spec.c1K (argsK m c) (Cert.Spec.pair (Cert.Spec.fl i) 0) := by
  have e : W2 (F := Ideal) m ρ c (Proc.devRef .tc main_v29_0) = (dat0 (F := Ideal) (V1 m ρ) c).arrAt 5 cfg0.N := W2_arr m ρ c 5
  rw [e, Region0.out5 (V1 m ρ) c i]
  show ((Cert.Spec.kH * W1 (F := Ideal) m ρ c (Proc.devRef .tc main_v24) i) * Cert.Spec.dW (W1 (F := Ideal) m ρ c (Proc.devRef .tc main_v26) i))
    * W1 (F := Ideal) m ρ c (Proc.devRef .tc main_v27) i = _
  rw [Host0.v24, Host0.v26, Host0.v27]
  unfold Cert.Spec.c1K
  rw [Cert.Spec.e1_pair]

theorem w2_1 (c : Dev nD) (i : S50000x128.Idx) :
    W2 (F := Ideal) m ρ c (Proc.devRef .tc main_v29_1) i = Cert.Spec.c1K (argsK m c) (Cert.Spec.pair (Cert.Spec.fl i) 1) := by
  have e : W2 (F := Ideal) m ρ c (Proc.devRef .tc main_v29_1) = (dat0 (F := Ideal) (V1 m ρ) c).arrAt 6 cfg0.N := W2_arr m ρ c 6
  rw [e, Region0.out6 (V1 m ρ) c i]
  show ((Cert.Spec.kH * W1 (F := Ideal) m ρ c (Proc.devRef .tc main_v24) i) * Cert.Spec.dW (W1 (F := Ideal) m ρ c (Proc.devRef .tc main_v26) i))
    * W1 (F := Ideal) m ρ c (Proc.devRef .tc main_v28) i = _
  rw [Host0.v24, Host0.v26, Host0.v28]
  unfold Cert.Spec.c1K
  rw [Cert.Spec.e1_pair]

theorem w2_2 (c : Dev nD) (i : S50000x128.Idx) :
    W2 (F := Ideal) m ρ c (Proc.devRef .tc main_v29_2) i = Cert.Spec.c2K (argsK m c) (Cert.Spec.pair (Cert.Spec.fl i) 0) := by
  have e : W2 (F := Ideal) m ρ c (Proc.devRef .tc main_v29_2) = (dat0 (F := Ideal) (V1 m ρ) c).arrAt 7 cfg0.N := W2_arr m ρ c 7
  rw [e, Region0.out7 (V1 m ρ) c i]
  show ((Cert.Spec.kM1 * W1 (F := Ideal) m ρ c (Proc.devRef .tc main_v25) i)
      * (Cert.Spec.k0 - Cert.Spec.sel (W1 (F := Ideal) m ρ c (Proc.devRef .tc main_v26) i)))
    * W1 (F := Ideal) m ρ c (Proc.devRef .tc main_v27) i = _
  rw [Host0.v25, Host0.v26, Host0.v27]
  unfold Cert.Spec.c2K
  rw [Cert.Spec.e1_pair]

theorem w2_3 (c : Dev nD) (i : S50000x128.Idx) :
    W2 (F := Ideal) m ρ c (Proc.devRef .tc main_v29_3) i = Cert.Spec.c2K (argsK m c) (Cert.Spec.pair (Cert.Spec.fl i) 1) := by
  have e : W2 (F := Ideal) m ρ c (Proc.devRef .tc main_v29_3) = (dat0 (F := Ideal) (V1 m ρ) c).arrAt 8 cfg0.N := W2_arr m ρ c 8
  rw [e, Region0.out8 (V1 m ρ) c i]
  show ((Cert.Spec.kM1 * W1 (F := Ideal) m ρ c (Proc.devRef .tc main_v25) i)
      * (Cert.Spec.k0 - Cert.Spec.sel (W1 (F := Ideal) m ρ c (Proc.devRef .tc main_v26) i)))
    * W1 (F := Ideal) m ρ c (Proc.devRef .tc main_v28) i = _
  rw [Host0.v25, Host0.v26, Host0.v28]
  unfold Cert.Spec.c2K
  rw [Cert.Spec.e1_pair]

/-- The first region writes neither index vector. -/
theorem w2_i (c : Dev nD) :
    W2 (F := Ideal) m ρ c (Proc.devRef .tc main_v1) = Cert.Spec.iVec (m ((c : Thread nD τ).loc main_arg0)) :=
  (W2_of_ne m ρ c main_v1 (by decide)).trans (Host0.v1 m ρ c)
theorem w2_j (c : Dev nD) :
    W2 (F := Ideal) m ρ c (Proc.devRef .tc main_v3) = Cert.Spec.jVec (m ((c : Thread nD τ).loc main_arg0)) :=
  (W2_of_ne m ρ c main_v3 (by decide)).trans (Host0.v3 m ρ c)

/-! ## After the second stretch -/

theorem w3_coh (c : Dev nD) :
    W3 (F := Ideal) m ρ c (Proc.devRef .tc main_v45) = Cert.Spec.seg (argsK m c) (Cert.Spec.c2K (argsK m c)) :=
  Host1.v45 (W2 m ρ c) (m ((c : Thread nD τ).loc main_arg0)) (Cert.Spec.c2K (argsK m c)) (argsK m c)
    (w2_2 m ρ c) (w2_3 m ρ c) (w2_i m ρ c) rfl

theorem w3_62 (c : Dev nD) (i : S50000x128.Idx) : W3 (F := Ideal) m ρ c (Proc.devRef .tc main_v62) i
    = Cert.Spec.rowsI (argsK m c) (Cert.Spec.normalsK (argsK m c)) (Cert.Spec.pair (Cert.Spec.fl i) 0) :=
  Host1.v62 (W2 m ρ c) (m ((c : Thread nD τ).loc main_arg0)) (Cert.Spec.c1K (argsK m c)) (argsK m c)
    (w2_0 m ρ c) (w2_1 m ρ c) (w2_i m ρ c) rfl rfl i
theorem w3_65 (c : Dev nD) (i : S50000x128.Idx) : W3 (F := Ideal) m ρ c (Proc.devRef .tc main_v65) i
    = Cert.Spec.rowsI (argsK m c) (Cert.Spec.normalsK (argsK m c)) (Cert.Spec.pair (Cert.Spec.fl i) 1) :=
  Host1.v65 (W2 m ρ c) (m ((c : Thread nD τ).loc main_arg0)) (Cert.Spec.c1K (argsK m c)) (argsK m c)
    (w2_0 m ρ c) (w2_1 m ρ c) (w2_i m ρ c) rfl rfl i
theorem w3_68 (c : Dev nD) (i : S50000x128.Idx) : W3 (F := Ideal) m ρ c (Proc.devRef .tc main_v68) i
    = Cert.Spec.rowsJ (argsK m c) (Cert.Spec.normalsK (argsK m c)) (Cert.Spec.pair (Cert.Spec.fl i) 0) :=
  Host1.v68 (W2 m ρ c) (m ((c : Thread nD τ).loc main_arg0)) (Cert.Spec.c1K (argsK m c)) (argsK m c)
    (w2_0 m ρ c) (w2_1 m ρ c) (w2_i m ρ c) (w2_j m ρ c) rfl rfl i
theorem w3_71 (c : Dev nD) (i : S50000x128.Idx) : W3 (F := Ideal) m ρ c (Proc.devRef .tc main_v71) i
    = Cert.Spec.rowsJ (argsK m c) (Cert.Spec.normalsK (argsK m c)) (Cert.Spec.pair (Cert.Spec.fl i) 1) :=
  Host1.v71 (W2 m ρ c) (m ((c : Thread nD τ).loc main_arg0)) (Cert.Spec.c1K (argsK m c)) (argsK m c)
    (w2_0 m ρ c) (w2_1 m ρ c) (w2_i m ρ c) (w2_j m ρ c) rfl rfl i
theorem w3_i (c : Dev nD) :
    W3 (F := Ideal) m ρ c (Proc.devRef .tc main_v1) = Cert.Spec.iVec (m ((c : Thread nD τ).loc main_arg0)) :=
  (Host1.v1 (W2 m ρ c)).trans (w2_i m ρ c)

/-! ## After the second region: its two outputs are the components of dK -/

theorem w4_0 (c : Dev nD) (i : S50000x128.Idx) :
    W4 (F := Ideal) m ρ c (Proc.devRef .tc main_v72_0) i = Cert.Spec.dK (argsK m c) (Cert.Spec.pair (Cert.Spec.fl i) 0) := by
  have e : W4 (F := Ideal) m ρ c (Proc.devRef .tc main_v72_0) = (dat1 (F := Ideal) (V3 m ρ) c).arrAt 4 cfg1.N := W4_arr m ρ c 4
  rw [e, Region1.out4 (V3 m ρ) c i]
  show Cert.Spec.kM1 * HSub.hSub (α := EReal) (β := EReal) (γ := EReal) (W3 (F := Ideal) m ρ c (Proc.devRef .tc main_v62) i)
    (W3 (F := Ideal) m ρ c (Proc.devRef .tc main_v68) i) = _
  rw [w3_62, w3_68]
  rfl

theorem w4_1 (c : Dev nD) (i : S50000x128.Idx) :
    W4 (F := Ideal) m ρ c (Proc.devRef .tc main_v72_1) i = Cert.Spec.dK (argsK m c) (Cert.Spec.pair (Cert.Spec.fl i) 1) := by
  have e : W4 (F := Ideal) m ρ c (Proc.devRef .tc main_v72_1) = (dat1 (F := Ideal) (V3 m ρ) c).arrAt 5 cfg1.N := W4_arr m ρ c 5
  rw [e, Region1.out5 (V3 m ρ) c i]
  show Cert.Spec.kM1 * HSub.hSub (α := EReal) (β := EReal) (γ := EReal) (W3 (F := Ideal) m ρ c (Proc.devRef .tc main_v65) i)
    (W3 (F := Ideal) m ρ c (Proc.devRef .tc main_v71) i) = _
  rw [w3_65, w3_71]
  rfl

theorem w4_i (c : Dev nD) :
    W4 (F := Ideal) m ρ c (Proc.devRef .tc main_v1) = Cert.Spec.iVec (m ((c : Thread nD τ).loc main_arg0)) :=
  (W4_of_ne m ρ c main_v1 (by decide)).trans (w3_i m ρ c)
theorem w4_coh (c : Dev nD) :
    W4 (F := Ideal) m ρ c (Proc.devRef .tc main_v45) = Cert.Spec.seg (argsK m c) (Cert.Spec.c2K (argsK m c)) :=
  (W4_of_ne m ρ c main_v45 (by decide)).trans (w3_coh m ρ c)

/-! ## The result -/

/-- The result array at the last boundary is K of the launch arguments. -/
theorem result (c : Dev nD) :
    W5 (F := Ideal) m ρ c (Proc.devRef .tc main_v81) = Cert.Spec.K (argsK m c) := by
  have h := Host2.v81 (W4 m ρ c) (m ((c : Thread nD τ).loc main_arg0)) (Cert.Spec.dK (argsK m c)) (argsK m c)
    (w4_0 m ρ c) (w4_1 m ρ c) (w4_i m ρ c) rfl
  refine h.trans ?_
  funext z
  rw [w4_coh]
  rfl

end Cert.KernelIdeal.KernelValue

end
-- ==== Proof.RefValue.lean ====
/-
  The reference's result, read back through its run one operation at a time, is the specification's reference-side
  function R of the arguments.
-/
import proofs.«144629_j47021301957211_1_alg».proof.Proof.Gen.ReferenceIdeal.Read
import proofs.«144629_j47021301957211_1_alg».proof.Proof.Spec
import Idealize.ShloMosaic.PureOps.Ideal.Laws

noncomputable section

open Idealize.ShloMosaic Idealize.ShloMosaic.TcCoe Idealize.ShloMosaic.ValueIdx Idealize.SL.Sem
open Cert.ReferenceIdeal Cert.ReferenceIdeal.Gen

namespace Cert.ReferenceIdeal.RefValue

/-! ## Edge indices: both broadcasts [E] → [E, 1] → [E, 2] read the vector at the edge of the index -/

private theorem e1_v31 (y : S6400000x2.Idx) : Read.idx_main_v31 (Read.idx_main_v32 y) = Cert.Spec.e1 y := by
  funext a; match a with | ⟨0, _⟩ => rfl

private theorem e1_v34 (y : S6400000x2.Idx) : Read.idx_main_v34 (Read.idx_main_v35 y) = Cert.Spec.e1 y := by
  funext a; match a with | ⟨0, _⟩ => rfl

private theorem e1_v95 (y : S6400000x2.Idx) : Read.idx_main_v95 (Read.idx_main_v96 y) = Cert.Spec.e1 y := by
  funext a; match a with | ⟨0, _⟩ => rfl

/-! ## The comparison's bit selects as the `if` does -/

private theorem select_le (x c p q : EReal) :
    Scalar.select (Ideal.cmp .ole x c) p q = if x ≤ c then p else q := by
  unfold Scalar.select Ideal.cmp
  by_cases h : x ≤ c <;> simp [h]

/-- The scatter-adds' zero operand. -/
private theorem zeros (v : S100000x2.Idx → EReal) (h : ∀ z, v z = Ideal.ofBits .f32 0x00000000#32) :
    v = fun _ => (0 : EReal) := by
  funext z; rw [h z]; exact Ideal.ofBits_zero_f32

section
variable (x0 : IVec S2x6400000 32) (x1 x2 x3 : S100000.Idx → EReal) (x4 : S6400000.Idx → EReal)
  (x5 : S6400000x2.Idx → EReal)

/-! ## The node tables read at the edges' j -/

private theorem takeA :
    Read.val_main_v10 (F := Ideal) x0 x1 = Cert.Spec.takeJ (Cert.Spec.mkArgs x0 x1 x2 x3 x4 x5) x1 := rfl
private theorem takeD :
    Read.val_main_v17 (F := Ideal) x0 x2 = Cert.Spec.takeJ (Cert.Spec.mkArgs x0 x1 x2 x3 x4 x5) x2 := rfl
private theorem takeA' :
    Read.val_main_v68 (F := Ideal) x0 x1 = Cert.Spec.takeJ (Cert.Spec.mkArgs x0 x1 x2 x3 x4 x5) x1 := rfl
private theorem takeR :
    Read.val_main_v75 (F := Ideal) x0 x3 = Cert.Spec.takeJ (Cert.Spec.mkArgs x0 x1 x2 x3 x4 x5) x3 := rfl

/-! ## The first update array: fac_n * (dW q * dist) -/

private theorem firstUpdates_eq :
    Read.val_main_v36 (F := Ideal) x0 x1 x2 x4 x5 = Cert.Spec.t1 (Cert.Spec.mkArgs x0 x1 x2 x3 x4 x5) := by
  funext y
  rw [Read.val_main_v36_apply, Read.val_main_v35_apply, Read.val_main_v34_apply, Read.val_main_v18_apply,
    Read.val_main_v33_apply, Read.val_main_v32_apply, Read.val_main_v31_apply, Read.val_main_v30_apply,
    Read.val_main_v28_apply, Read.val_main_v27_apply, Read.val_main_cst_5_apply, Read.val_main_v26_apply,
    Read.val_main_v20_apply, Read.val_main_v19_apply, Read.val_main_cst_apply, Read.val_main_v25_apply,
    Read.val_main_v24_apply, Read.val_main_v23_apply, Read.val_main_call0_v1_apply, Read.val_main_call0_v0_apply,
    Read.val_main_cst_4_apply, Read.val_main_v22_apply, Read.val_main_v21_apply, Read.val_main_cst_3_apply,
    Read.val_main_v29_apply, Read.val_main_cst_6_apply, e1_v31, e1_v34,
    takeA x0 x1 x2 x3 x4 x5, takeD x0 x1 x2 x3 x4 x5]
  rfl

/-! ## The normals: h times the segment sum of the first updates -/

private theorem firstSegSum_eq :
    Read.val_main_v39 (F := Ideal) x0 x1 x2 x4 x5
      = Cert.Spec.seg (Cert.Spec.mkArgs x0 x1 x2 x3 x4 x5) (Cert.Spec.t1 (Cert.Spec.mkArgs x0 x1 x2 x3 x4 x5)) := by
  unfold Read.val_main_v39
  rw [firstUpdates_eq x0 x1 x2 x3 x4 x5,
    zeros (Read.val_main_v37 (F := Ideal)) (fun z => by rw [Read.val_main_v37_apply, Read.val_main_cst_7_apply]; rfl)]
  rfl

private theorem normals_eq :
    Read.val_main_v41 (F := Ideal) x0 x1 x2 x4 x5 = Cert.Spec.normalsR (Cert.Spec.mkArgs x0 x1 x2 x3 x4 x5) := by
  funext z
  rw [Read.val_main_v41_apply, Read.val_main_v40_apply, Read.val_main_cst_8_apply, firstSegSum_eq x0 x1 x2 x3 x4 x5]
  rfl

/-! ## The second update array: normals at i minus normals at j -/

private theorem normalDiffs_eq :
    Read.val_main_v56 (F := Ideal) x0 x1 x2 x4 x5 = Cert.Spec.dR (Cert.Spec.mkArgs x0 x1 x2 x3 x4 x5) := by
  funext y
  rw [Read.val_main_v56_apply]
  unfold Read.val_main_v48 Read.val_main_v55
  rw [normals_eq x0 x1 x2 x3 x4 x5]
  rfl

private theorem diffSegSum_eq :
    Read.val_main_v59 (F := Ideal) x0 x1 x2 x4 x5
      = Cert.Spec.seg (Cert.Spec.mkArgs x0 x1 x2 x3 x4 x5) (Cert.Spec.dR (Cert.Spec.mkArgs x0 x1 x2 x3 x4 x5)) := by
  unfold Read.val_main_v59
  rw [normalDiffs_eq x0 x1 x2 x3 x4 x5,
    zeros (Read.val_main_v57 (F := Ideal)) (fun z => by rw [Read.val_main_v57_apply, Read.val_main_cst_13_apply]; rfl)]
  rfl

/-! ## The third update array: fac_c * (-sel q) * dist -/

private theorem cohesionUpdates_eq :
    Read.val_main_v97 (F := Ideal) x0 x1 x3 x4 x5 = Cert.Spec.t2 (Cert.Spec.mkArgs x0 x1 x2 x3 x4 x5) := by
  funext y
  rw [Read.val_main_v97_apply, Read.val_main_v96_apply, Read.val_main_v95_apply, Read.val_main_v94_apply,
    Read.val_main_v76_apply, Read.val_main_v93_apply, Read.val_main_v92_apply, Read.val_main_v91_apply,
    Read.val_main_v90_apply, Read.val_main_cst_23_apply, Read.val_main_v87_apply, Read.val_main_v85_apply,
    Read.val_main_v84_apply, Read.val_main_cst_20_apply, Read.val_main_v86_apply, Read.val_main_cst_21_apply,
    Read.val_main_v89_apply, Read.val_main_v88_apply, Read.val_main_cst_22_apply, Read.val_main_v83_apply,
    Read.val_main_v80_apply, Read.val_main_v79_apply, Read.val_main_v78_apply, Read.val_main_v77_apply,
    Read.val_main_cst_19_apply, Read.val_main_v82_apply, Read.val_main_v81_apply, e1_v95,
    takeA' x0 x1 x2 x3 x4 x5, takeR x0 x1 x2 x3 x4 x5]
  show ((_ * _) * (-(Scalar.select (Ideal.cmp .ole (x4 (Cert.Spec.e1 y)) Cert.Spec.kHalf)
      (Cert.Spec.k128 * Cert.Spec.poly (x4 (Cert.Spec.e1 y)) + Cert.Spec.k1)
      (Cert.Spec.k64 * Cert.Spec.poly (x4 (Cert.Spec.e1 y)))))) * _ = _
  rw [select_le]
  rfl

private theorem cohesionSegSum_eq :
    Read.val_main_v100 (F := Ideal) x0 x1 x3 x4 x5
      = Cert.Spec.seg (Cert.Spec.mkArgs x0 x1 x2 x3 x4 x5) (Cert.Spec.t2 (Cert.Spec.mkArgs x0 x1 x2 x3 x4 x5)) := by
  unfold Read.val_main_v100
  rw [cohesionUpdates_eq x0 x1 x2 x3 x4 x5,
    zeros (Read.val_main_v98 (F := Ideal)) (fun z => by rw [Read.val_main_v98_apply, Read.val_main_cst_24_apply]; rfl)]
  rfl

end

/-! ## The result: minus the two segment sums -/

theorem result (x0 : IVec S2x6400000 32) (x1 x2 x3 : S100000.Idx → EReal) (x4 : S6400000.Idx → EReal) (x5 : S6400000x2.Idx → EReal) :
    Cert.ReferenceIdeal.Read.val_main_v103 (F := Ideal) x0 x1 x2 x3 x4 x5 = Cert.Spec.R (Cert.Spec.mkArgs x0 x1 x2 x3 x4 x5) := by
  funext z
  rw [Read.val_main_v103_apply, Read.val_main_v61_apply, Read.val_main_v60_apply, Read.val_main_cst_14_apply,
    Read.val_main_v102_apply, Read.val_main_v101_apply, Read.val_main_cst_25_apply,
    diffSegSum_eq x0 x1 x2 x3 x4 x5, cohesionSegSum_eq x0 x1 x2 x3 x4 x5]
  rfl

end Cert.ReferenceIdeal.RefValue

end
-- ==== Proof.PreDecode.lean ====
/-
  The precondition, decoded: every float input is a real number, and the density gathered at every edge's j is not zero.
-/
import proofs.«144629_j47021301957211_1_alg».proof.Pre_finite_inputs
import proofs.«144629_j47021301957211_1_alg».proof.Proof.Gen.Pre_finite_inputs
import proofs.«144629_j47021301957211_1_alg».proof.Proof.Spec
import Idealize.ShloMosaic.PureOps.Ideal.Laws
import Idealize.ShloMosaic.Lib.ReduceAll
import Idealize.ShloMosaic.Lib.StableHlo.Predicate

noncomputable section

open Idealize.ShloMosaic Idealize.ShloMosaic.ValueIdx

namespace Cert.PreDecode

/-- The rank-0 result of a reduction over every axis has one index. -/
private instance : Subsingleton Cert.Pre_finite_inputs.S_.Idx := ⟨fun a b => funext fun d => d.elim0⟩

/-- The f32 pattern 0x7F800000 denotes +∞. -/
private theorem inf_bits : Ideal.ofBits .f32 0x7F800000#32 = (⊤ : EReal) := by simp [Ideal.ofBits, Ideal.ieee]

/-- An extended real whose absolute value max x (-x) lies strictly below +∞ is a real number: at ⊥ and at ⊤ the
    absolute value is ⊤. -/
private theorem real_of_abs_lt_inf (x : EReal)
    (h : Ideal.cmp .olt (max x (-x)) (Ideal.ofBits .f32 0x7F800000#32) = 1#1) : ∃ r : ℝ, x = (r : EReal) := by
  rw [inf_bits] at h
  have hlt : max x (-x) < ⊤ := by
    simpa [Ideal.cmp, StableHlo.Predicate.ofBool_eq_one_iff] using h
  induction x using EReal.rec with
  | bot => simp at hlt
  | coe r => exact ⟨r, rfl⟩
  | top => simp at hlt

/-- "x ≠ 0.0" read back: the f32 pattern 0 denotes 0. -/
private theorem ne_zero_of_une (x : EReal)
    (h : Ideal.cmp .une x (Ideal.ofBits .f32 0x00000000#32) = 1#1) : x ≠ 0 := by
  rw [Ideal.ofBits_zero_f32] at h
  simpa [Ideal.cmp, StableHlo.Predicate.ofBool_eq_one_iff] using h

/-- The printed precondition holds only on the domain of the specification. The predicate is a conjunction of six
    "all" reductions; each gives its element fact at every index. The first five say |x| < +∞ of an entry of A, D, R, q,
    dist, so the entry is a real number. The sixth says D read at the wrapped j column differs from 0.0 at every edge: the
    printed gather is the specification's takeJ, operation for operation. -/
theorem finite_of_pre [Cert.Pre_finite_inputs.Facts] (x0 : IVec Cert.Spec.SNB 32) (x1 x2 x3 : Cert.Spec.SN.Idx → EReal)
    (x4 : Cert.Spec.SE.Idx → EReal) (x5 : Cert.Spec.SE2.Idx → EReal)
    (h : Cert.Pre_finite_inputs.fn (F := Ideal) x0 x1 x2 x3 x4 x5 = (fun _ => 1#1)) :
    Cert.Spec.Finite (Cert.Spec.mkArgs x0 x1 x2 x3 x4 x5) := by
  have h0 := congrFun h ValueIdx.ix0
  dsimp only [Cert.Pre_finite_inputs.fn, Cert.Pre_finite_inputs.fn_part1, Cert.Pre_finite_inputs.fn_part2, andi] at h0
  simp only [IntOp.andi_eq_one] at h0
  obtain ⟨⟨⟨⟨⟨h1, h2⟩, h3⟩, h4⟩, h5⟩, h6⟩ := h0
  refine ⟨fun k => ?_, fun k => ?_, fun k => ?_, fun e => ?_, fun y => ?_, fun e => ?_⟩
  · exact real_of_abs_lt_inf _ (Host.reduce_andi_all _ _ _ _ _ h1 k)
  · exact real_of_abs_lt_inf _ (Host.reduce_andi_all _ _ _ _ _ h2 k)
  · exact real_of_abs_lt_inf _ (Host.reduce_andi_all _ _ _ _ _ h3 k)
  · exact real_of_abs_lt_inf _ (Host.reduce_andi_all _ _ _ _ _ h4 e)
  · exact real_of_abs_lt_inf _ (Host.reduce_andi_all _ _ _ _ _ h5 y)
  · exact ne_zero_of_une _ (Host.reduce_andi_all _ _ _ _ _ h6 e)

end Cert.PreDecode

end
-- ==== Proof.Bridge.lean ====
/-
  On the domain the two functions are one: with every update a real number, a real factor moves across a segment sum.

  The extended reals are a commutative monoid under multiplication, so the factors h and -1 can be moved to the front of
  each update with no hypothesis. Multiplication does not distribute over addition there in general (-1 * (⊤ + ⊥) is ⊤,
  while -⊤ + -⊥ is ⊥): a factor c crosses a finite sum when c and every summand are real numbers. So the proof is mostly
  book-keeping of which quantities are real: the constants, the polynomials in q, the gathered tables, the quotient
  A[j] / D[j] (this is where the nonzero density is used: division by zero is infinite), the segment sums of real updates,
  and then the rows of the intermediate normals.
-/
import proofs.«144629_j47021301957211_1_alg».proof.Proof.Spec

noncomputable section

namespace Cert.Spec

open Idealize.ShloMosaic Idealize.ShloMosaic.ValueIdx

/-! ## Extended reals that are real numbers -/

/-- The extended real x is a real number. -/
private abbrev Re (x : EReal) : Prop := ∃ r : ℝ, x = (r : EReal)

private theorem Re.mul {x y : EReal} (hx : Re x) (hy : Re y) : Re (x * y) := by
  obtain ⟨r, rfl⟩ := hx
  obtain ⟨s, rfl⟩ := hy
  exact ⟨r * s, (EReal.coe_mul r s).symm⟩

private theorem Re.add {x y : EReal} (hx : Re x) (hy : Re y) : Re (x + y) := by
  obtain ⟨r, rfl⟩ := hx
  obtain ⟨s, rfl⟩ := hy
  exact ⟨r + s, (EReal.coe_add r s).symm⟩

private theorem Re.sub {x y : EReal} (hx : Re x) (hy : Re y) : Re (x - y) := by
  obtain ⟨r, rfl⟩ := hx
  obtain ⟨s, rfl⟩ := hy
  exact ⟨r - s, (EReal.coe_sub r s).symm⟩

private theorem Re.neg {x : EReal} (hx : Re x) : Re (-x) := by
  obtain ⟨r, rfl⟩ := hx
  exact ⟨-r, (EReal.coe_neg r).symm⟩

/-- The greater of two real numbers is one of them. -/
private theorem Re.max {x y : EReal} (hx : Re x) (hy : Re y) : Re (max x y) := by
  rcases max_choice x y with h | h <;> rw [h] <;> assumption

/-- A real number over a nonzero real number is the real product with the reciprocal. -/
private theorem Re.div {x y : EReal} (hx : Re x) (hy : Re y) (h0 : y ≠ 0) : Re (Ideal.div x y) := by
  obtain ⟨s, rfl⟩ := hy
  have hs : s ≠ 0 := EReal.coe_ne_zero.mp h0
  rw [Ideal.div_coe hs]
  exact hx.mul ⟨_, rfl⟩

/-! ## Finite sums of real numbers -/

/-- A finite sum of real numbers taken in the extended reals is the real sum. -/
private theorem sum_coe {ι : Type} (s : Finset ι) (f : ι → ℝ) :
    ∑ j ∈ s, ((f j : ℝ) : EReal) = ((∑ j ∈ s, f j : ℝ) : EReal) := by
  classical
  refine Finset.induction_on s ?_ ?_
  · rw [Finset.sum_empty, Finset.sum_empty, EReal.coe_zero]
  · intro j s hj ih
    rw [Finset.sum_insert hj, Finset.sum_insert hj, ih, EReal.coe_add]

private theorem sum_re {ι : Type} (s : Finset ι) (u : ι → EReal) (hu : ∀ j, Re (u j)) : Re (∑ j ∈ s, u j) := by
  choose f hf using hu
  rw [show u = fun j => ((f j : ℝ) : EReal) from funext hf]
  exact ⟨_, sum_coe s f⟩

/-- A real factor crosses a finite sum of real numbers. -/
private theorem mul_sum_re {ι : Type} (s : Finset ι) (c : ℝ) (u : ι → EReal) (hu : ∀ j, Re (u j)) :
    ∑ j ∈ s, (c : EReal) * u j = (c : EReal) * ∑ j ∈ s, u j := by
  choose f hf using hu
  rw [show u = fun j => ((f j : ℝ) : EReal) from funext hf]
  calc ∑ j ∈ s, (c : EReal) * ((f j : ℝ) : EReal)
      = ∑ j ∈ s, ((c * f j : ℝ) : EReal) := Finset.sum_congr rfl (fun j _ => (EReal.coe_mul c (f j)).symm)
    _ = ((∑ j ∈ s, c * f j : ℝ) : EReal) := sum_coe s _
    _ = ((c * ∑ j ∈ s, f j : ℝ) : EReal) := by rw [Finset.mul_sum]
    _ = (c : EReal) * ((∑ j ∈ s, f j : ℝ) : EReal) := EReal.coe_mul _ _
    _ = (c : EReal) * ∑ j ∈ s, ((f j : ℝ) : EReal) := by rw [sum_coe]

/-! ## The constants -/

/-- A pattern whose exponent field is not all ones denotes a real number. -/
private theorem ieee_re (e m : Nat) {w : Nat} (b : BitVec w) (h : (b.extractLsb' m e).toNat ≠ 2 ^ e - 1) :
    Re (Ideal.ieee e m b) := by
  unfold Ideal.ieee
  dsimp only
  rw [if_neg h]
  split_ifs <;> exact ⟨_, rfl⟩

/-- A normal pattern (exponent field neither all ones nor zero) denotes a nonzero number: its significand
    2^m + T is positive. -/
private theorem ieee_ne_zero (e m : Nat) {w : Nat} (b : BitVec w) (h : (b.extractLsb' m e).toNat ≠ 2 ^ e - 1)
    (h0 : (b.extractLsb' m e).toNat ≠ 0) : Ideal.ieee e m b ≠ 0 := by
  unfold Ideal.ieee
  dsimp only
  rw [if_neg h, if_neg h0]
  refine EReal.coe_ne_zero.mpr (mul_ne_zero (mul_ne_zero ?_ ?_) (zpow_ne_zero _ two_ne_zero))
  · split_ifs <;> norm_num
  · exact_mod_cast (Nat.pos_of_ne_zero (by positivity)).ne'

/-- The single-precision case: 8 exponent bits above 23 significand bits. -/
private theorem f32_re (b : BitVec 32) (h : (b.extractLsb' 23 8).toNat ≠ 2 ^ 8 - 1) : Re (Ideal.ofBits .f32 b) := by
  show Re (Ideal.ieee 8 23 b)
  exact ieee_re 8 23 b h

private theorem f32_ne_zero (b : BitVec 32) (h : (b.extractLsb' 23 8).toNat ≠ 2 ^ 8 - 1)
    (h0 : (b.extractLsb' 23 8).toNat ≠ 0) : Ideal.ofBits .f32 b ≠ 0 := by
  show Ideal.ieee 8 23 b ≠ 0
  exact ieee_ne_zero 8 23 b h h0

private theorem k0_re : Re k0 := f32_re _ (by decide)
private theorem k1_re : Re k1 := f32_re _ (by decide)
private theorem kHalf_re : Re kHalf := f32_re _ (by decide)
private theorem k64_re : Re k64 := f32_re _ (by decide)
private theorem k128_re : Re k128 := f32_re _ (by decide)
private theorem kM1_re : Re kM1 := f32_re _ (by decide)
private theorem kM20_re : Re kM20 := f32_re _ (by decide)
private theorem kC_re : Re kC := f32_re _ (by decide)
private theorem kH_re : Re kH := f32_re _ (by decide)
private theorem kH_ne : kH ≠ 0 := f32_ne_zero _ (by decide) (by decide)
private theorem k0_eq : k0 = 0 := by simp [Ideal.ofBits, Ideal.ieee]

/-! ## The scalar terms at a real argument -/

private theorem dW_re {x : EReal} (hx : Re x) : Re (dW x) := by
  have hm : Re (max k0 (k1 - x)) := k0_re.max (k1_re.sub hx)
  unfold dW
  exact (kC_re.mul ((kM20_re.mul hx).mul ((hm.mul hm).mul hm))).div kH_re kH_ne

private theorem poly_re {x : EReal} (hx : Re x) : Re (poly x) := by
  have h1 : Re (x - k1) := hx.sub k1_re
  unfold poly
  exact ((h1.mul h1).mul h1).mul ((hx.mul hx).mul hx)

private theorem sel_re {x : EReal} (hx : Re x) : Re (sel x) := by
  unfold sel
  split_ifs
  · exact (k128_re.mul (poly_re hx)).add k1_re
  · exact k64_re.mul (poly_re hx)

/-! ## The operators -/

section Operators

variable (a : Args)

/-- A gather reads one element of its table: of a real table, a real number. -/
private theorem takeJ_re (x : SN.Idx → EReal) (hx : ∀ k, Re (x k)) (e : SE.Idx) : Re (takeJ a x e) := by
  show Re (x (gd1.operandIdx e a.jN))
  exact hx _

private theorem rowsI_re (x : SN2.Idx → EReal) (hx : ∀ z, Re (x z)) (y : SE2.Idx) : Re (rowsI a x y) := by
  show Re (x (gd2.operandIdx y a.iN))
  exact hx _

private theorem rowsJ_re (x : SN2.Idx → EReal) (hx : ∀ z, Re (x z)) (y : SE2.Idx) : Re (rowsJ a x y) := by
  show Re (x (gd2.operandIdx y a.jN))
  exact hx _

/-- The gather of a pointwise quotient is the quotient of the gathers. -/
private theorem facnK_eq (e : SE.Idx) : facnK a e = Ideal.div (takeJ a a.A e) (takeJ a a.D e) := rfl

/-- The gather of a pointwise product is the product of the gathers. -/
private theorem faccK_eq (e : SE.Idx) : faccK a e = takeJ a a.A e * takeJ a a.R e := rfl

/-- The segment sum at a node is a finite sum, over a set of edge entries that does not depend on the updates. -/
private theorem seg_sum (z : SN2.Idx) :
    ∃ s : Finset SE2.Idx, ∀ u : SE2.Idx → EReal, seg a u z = ∑ j ∈ s, u j := by
  refine ⟨?s, fun u => ?_⟩
  case s => exact Finset.univ.filter (fun j => sd.resultIdx? j a.iRaw = some z)
  show (0 : EReal) + _ = _
  exact zero_add _

private theorem seg_re (u : SE2.Idx → EReal) (hu : ∀ y, Re (u y)) (z : SN2.Idx) : Re (seg a u z) := by
  obtain ⟨s, hs⟩ := seg_sum a z
  rw [hs]
  exact sum_re s u hu

/-- A real factor crosses the segment sum of real updates. -/
private theorem seg_mul (c : ℝ) (u : SE2.Idx → EReal) (hu : ∀ y, Re (u y)) (z : SN2.Idx) :
    seg a (fun y => (c : EReal) * u y) z = (c : EReal) * seg a u z := by
  obtain ⟨s, hs⟩ := seg_sum a z
  rw [hs, hs]
  exact mul_sum_re s c u hu

/-! ## The updates: the kernel's are the reference's times a constant -/

private theorem c1K_eq (y : SE2.Idx) : c1K a y = kH * t1 a y := by
  unfold c1K t1
  rw [facnK_eq]
  simp only [mul_assoc]

private theorem c2K_eq (y : SE2.Idx) : c2K a y = kM1 * t2 a y := by
  unfold c2K t2
  rw [faccK_eq, k0_eq, zero_sub]
  simp only [mul_assoc]

/-! ## On the domain every update is real -/

variable (h : Finite a)
include h

private theorem t1_re (y : SE2.Idx) : Re (t1 a y) := by
  unfold t1
  exact ((takeJ_re a a.A h.A _).div (takeJ_re a a.D h.D _) (h.Dj_ne _)).mul ((dW_re (h.q _)).mul (h.dist y))

private theorem t2_re (y : SE2.Idx) : Re (t2 a y) := by
  unfold t2
  exact (((takeJ_re a a.A h.A _).mul (takeJ_re a a.R h.R _)).mul (sel_re (h.q _)).neg).mul (h.dist y)

private theorem normalsR_re (z : SN2.Idx) : Re (normalsR a z) := by
  unfold normalsR
  exact kH_re.mul (seg_re a _ (t1_re a h) z)

private theorem dR_re (y : SE2.Idx) : Re (dR a y) := by
  unfold dR
  exact (rowsI_re a _ (normalsR_re a h) y).sub (rowsJ_re a _ (normalsR_re a h) y)

/-- The intermediate normals agree: h crosses the first segment sum. -/
private theorem normalsK_eq : normalsK a = normalsR a := by
  obtain ⟨rH, hH⟩ := kH_re
  funext z
  unfold normalsK normalsR
  rw [show c1K a = fun y => (rH : EReal) * t1 a y from funext fun y => by rw [c1K_eq, hH], hH]
  exact seg_mul a rH (t1 a) (t1_re a h) z

end Operators

/-! ## The two functions -/

theorem K_eq_R (a : Args) (h : Finite a) : K a = R a := by
  obtain ⟨rM, hM⟩ := kM1_re
  have hd : dK a = fun y => (rM : EReal) * dR a y := by
    funext y
    unfold dK dR
    rw [normalsK_eq a h, hM]
  have hc : c2K a = fun y => (rM : EReal) * t2 a y := funext fun y => by rw [c2K_eq, hM]
  funext z
  unfold K R
  rw [hd, hc, hM, seg_mul a rM (dR a) (dR_re a h) z, seg_mul a rM (t2 a) (t2_re a h) z]

end Cert.Spec

end
-- ==== Proof.lean ====
/- The proof of `Cert.Claim` (proofs.«144629_j47021301957211_1_alg».proof.Defs).

   The kernel program computes, per edge, the two update rows already scaled (by the support h, and by -1), sums them
   by segment, and repeats that for the curvature term; the reference sums the unscaled updates and scales the sums.
   Over the extended reals a factor moves across a sum only when no two terms are opposite infinities, so the claim is
   read on the domain where every update is a real number: finite inputs, and a nonzero density at every edge's
   second endpoint (the quotient area / density is what could be infinite). There both results are one function of
   the arguments (Proof/Spec.lean: K and R; Proof/Bridge.lean: K = R).

   The three frames are the generated ones (the reference's is its generated run with the result dropped); the ideal
   pass rewrote nothing, so the idealization claim is trivial; the kernel's value is the generated frame's run with the
   result kept (Proof/RunValue.lean) read boundary by boundary (Proof/KernelValue.lean), the reference's its generated
   run read one operation at a time (Proof/RefValue.lean). -/
import proofs.«144629_j47021301957211_1_alg».proof.Defs
import proofs.«144629_j47021301957211_1_alg».proof.Proof.Gen.Kernel
import proofs.«144629_j47021301957211_1_alg».proof.Proof.Gen.Kernel.Frame
import proofs.«144629_j47021301957211_1_alg».proof.Proof.Gen.KernelIdeal
import proofs.«144629_j47021301957211_1_alg».proof.Proof.Gen.KernelIdeal.Frame
import proofs.«144629_j47021301957211_1_alg».proof.Proof.Gen.ReferenceIdeal
import proofs.«144629_j47021301957211_1_alg».proof.Proof.Gen.ReferenceIdeal.Run
import proofs.«144629_j47021301957211_1_alg».proof.Proof.Gen.ReferenceIdeal.Read
import proofs.«144629_j47021301957211_1_alg».proof.Proof.Gen.Pre_finite_inputs
import proofs.«144629_j47021301957211_1_alg».proof.Proof.RunValue
import proofs.«144629_j47021301957211_1_alg».proof.Proof.KernelValue
import proofs.«144629_j47021301957211_1_alg».proof.Proof.RefValue
import proofs.«144629_j47021301957211_1_alg».proof.Proof.PreDecode
import proofs.«144629_j47021301957211_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end, from memories agreeing on the arguments, with the result K of the kernel's launch arguments:
    the kernel's by its run read back, the reference's because its result R is K on the domain. -/
theorem algebraic : Cert.algebraic_KernelIdeal_ReferenceIdeal := by
  intro m ρ m' ρ' hpre hagree
  refine ⟨fun c => Cert.Spec.K (Cert.KernelIdeal.argsK m c), ?_, ?_⟩
  · exact (θ_run Cert.KernelIdeal.defs _ _).mono
      (fun _ h c => ⟨(h c).1.trans (Cert.KernelIdeal.KernelValue.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v103_eq, Cert.ReferenceIdeal.RefValue.result,
      (hagree c).1, (hagree c).2.1, (hagree c).2.2.1, (hagree c).2.2.2.1, (hagree c).2.2.2.2.1, (hagree c).2.2.2.2.2]
    exact (Cert.Spec.K_eq_R _ (Cert.PreDecode.finite_of_pre _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
